-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩

abbrev nBuf : Space → Nat
  | .hbm => 4
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  bitsLt_bf16_f32 : FTy.bits .bf16 < FTy.bits .f32
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Rest0.lean ====
/-
  Region 0's resting invariant taken apart: the scratch that carries the running minimum, the scoped buffers that belong
  to the other region (untouched here, each whole at some contents), and the generator register.
-/
import proofs.«156689_j43800076484722_1_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the other region, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scratch of this region as a whole memref. -/
abbrev scM0_0 : Memref sig .tc .vmem S4x512 .f32 := Memref.whole cc0_scratch0

theorem PhiA0_eq (c : Dev nD) :
    (Pipeline.ΦA spec0 c : sProp 𝕄) = iprop(iprop((∃ d, owns (c : Thread nD τ) scM0_0 fullShare d) ∗ others0 c) ∗ (∃ r, prngReg c r)) := by
  unfold Pipeline.ΦA others0; rw [scopedRest0_eq]; simp only [scM0_0, owns_whole]; try rfl

/-- The invariant opened: the scratch at some contents, the other region's buffers, the generator register. -/
theorem PhiA0_split (c : Dev nD) :
    (Pipeline.ΦA spec0 c : sProp 𝕄) ⊢ iprop((∃ d, owns (c : Thread nD τ) scM0_0 fullShare d) ∗ others0 c ∗ (∃ r, prngReg c r)) := by
  rw [PhiA0_eq]
  iintro ⟨⟨HS, Ho⟩, Hg⟩
  isplitl [HS]; · iexact HS
  isplitl [Ho]; · iexact Ho
  iexact Hg

/-- And closed again. -/
theorem PhiA0_join (c : Dev nD) :
    iprop((∃ d, owns (c : Thread nD τ) scM0_0 fullShare d) ∗ others0 c ∗ (∃ r, prngReg c r)) ⊢ (Pipeline.ΦA spec0 c : sProp 𝕄) := by
  rw [PhiA0_eq]
  iintro ⟨HS, Ho, Hg⟩
  isplitl [HS Ho]
  · isplitl [HS]; · iexact HS
    iexact Ho
  iexact Hg

end Cert.Kernel.Fr

end
-- ==== Proof.K.Runs0.lean ====
/-
  Region 0 (the first nearest-neighbour call), what its three control cases share: the blocks its two input windows
  hold at a grid point, read off the arrays as the region finds them; the two branch conditions of the body decided
  over the 16 × 16 grid (the reset of the running minimum at the first tile of the reduced axis, the write of the
  output block at the last); where the output window is idle; and the kernel's staging and scratch memrefs.
-/
import proofs.«156689_j43800076484722_1_alg».proof.Proof.K.Rest0
import proofs.«156689_j43800076484722_1_alg».proof.Proof.Gen.Kernel.Launch
import proofs.«156689_j43800076484722_1_alg».proof.Proof.Gen.Kernel.Skeleton
import proofs.«156689_j43800076484722_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point: fetched where the row tile changes, and in between
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the first tile of the reduced axis" (the running minimum is reset to +∞), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile of the reduced axis" (the running minimum is written to the output block). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the body stores nothing into the output window, -/
theorem idleAt0_2 : ∀ t : Fin cfg0.N, ¬cond0_1 (grid0.coords t) → cfg0.idle 2 (grid0.coords t) = true := by decide +kernel
/-- and the block is not written back there. -/
theorem noFlush0_2 : ∀ t : Fin cfg0.N, ¬cond0_1 (grid0.coords t) → (cfg0.win 2).flush t = false := by decide +kernel
/-- At the last tile the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S4x512 .f32 := (Memref.whole cc0_stg2_0 : Memref sig .tc .vmem S4x512 .f32).view
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
/-- The scratch that carries the running minimum between grid points, as a view. -/
abbrev VS0_0 : View sig .tc .vmem S4x512 .f32 := scM0_0.view

end Cert.Kernel.Fr

end
-- ==== Proof.K.Run0A.lean ====
/-
  Region 0, the kernel body run once in the case of the FIRST tile of the reduced axis (the running minimum is reset; nothing goes to the output): on whole staging memrefs holding the two input blocks the body runs to
  its end, leaving the inputs as they were and the scratch (and, at the last tile, the output buffer) holding what its
  stores wrote; the pieces written are the witness the run finds.
-/
import proofs.«156689_j43800076484722_1_alg».proof.Proof.K.Runs0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First tile: the scratch is found at anything, reset to +∞ and then holds the minimum with this tile's distances; the
    idle output buffer is handed back untouched. -/
noncomputable def kernelRun0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run0B.lean ====
/-
  Region 0, the kernel body run once in the case of a MIDDLE tile of the reduced axis (neither the first nor the last): on whole staging memrefs holding the two input blocks the body runs to
  its end, leaving the inputs as they were and the scratch (and, at the last tile, the output buffer) holding what its
  stores wrote; the pieces written are the witness the run finds.
-/
import proofs.«156689_j43800076484722_1_alg».proof.Proof.K.Run0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Middle tile: the scratch is found at what the point before left and ends at the minimum of that with this tile's
    distances; the idle output buffer is handed back untouched. -/
noncomputable def kernelRun0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run0C.lean ====
/-
  Region 0, the kernel body run once in the case of the LAST tile of the reduced axis (the running minimum goes to the output block): on whole staging memrefs holding the two input blocks the body runs to
  its end, leaving the inputs as they were and the scratch (and, at the last tile, the output buffer) holding what its
  stores wrote; the pieces written are the witness the run finds.
-/
import proofs.«156689_j43800076484722_1_alg».proof.Proof.K.Run0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Last tile: the scratch is found at what the point before left and ends at the minimum of that with this tile's
    distances, which is also stored whole into the output buffer (found at anything). -/
noncomputable def kernelRun0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Frame0.lean ====
/-
  Region 0, the frame of the first nearest-neighbour call: what each control case leaves in the scratch that carries the
  running minimum and in the output buffer; what they hold after each grid point, by recursion on the point (the first
  tile of a row of tiles resets, every later tile takes what the point before left); the region's invariant, which after
  any point holds the scratch at exactly those contents; the proof data of the pipeline and the body obligation at every
  point, by cases on the tile's position in its row.
-/
import proofs.«156689_j43800076484722_1_alg».proof.Proof.K.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- First tile: nothing is stored into the output window (it is idle there): a placeholder nothing consults. -/
def out0_A_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) : Vec F S4x512 .f32 :=
  VO0_2.read (Elt F) (VO0_2.writes (Elt F) VO0_2.junk (kernelRun0_A c i arg2 harg2 arg3 harg3 arg4 harg4 arg5 harg5 hc0 hc1 x0 x1).1)

/-- First tile: the stores into the scratch cover it. -/
theorem scover0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) (y : S4x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4x512.size (by sl_kernel_rfl) y

/-- First tile: what the scratch holds afterwards. -/
def sout0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) : Vec F S4x512 .f32 :=
  VS0_0.read (Elt F) (VS0_0.writes (Elt F) VS0_0.junk (kernelRun0_A c i arg2 harg2 arg3 harg3 arg4 harg4 arg5 harg5 hc0 hc1 x0 x1).2.1)

/-- Middle tile: nothing is stored into the output window: a placeholder nothing consults. -/
def out0_B_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) : Vec F S4x512 .f32 :=
  VO0_2.read (Elt F) (VO0_2.writes (Elt F) VO0_2.junk (kernelRun0_B c i arg2 harg2 arg3 harg3 arg4 harg4 arg5 harg5 hc0 hc1 x0 x1 xs0).1)

/-- Middle tile: the store into the scratch covers it. -/
theorem scover0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) (y : S4x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4x512.size (by sl_kernel_rfl) y

/-- Middle tile: what the scratch holds afterwards. -/
def sout0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) : Vec F S4x512 .f32 :=
  VS0_0.read (Elt F) (VS0_0.writes (Elt F) VS0_0.junk (kernelRun0_B c i arg2 harg2 arg3 harg3 arg4 harg4 arg5 harg5 hc0 hc1 x0 x1 xs0).2.1)

/-- Last tile: the store into the output buffer covers it. -/
theorem cover0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) (y : S4x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4x512.size (by sl_kernel_rfl) y

/-- Last tile: what the output buffer holds afterwards. -/
def out0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) : Vec F S4x512 .f32 :=
  VO0_2.read (Elt F) (VO0_2.writes (Elt F) VO0_2.junk (kernelRun0_C c i arg2 harg2 arg3 harg3 arg4 harg4 arg5 harg5 hc0 hc1 x0 x1 xs0).1)

/-- Last tile: the store into the scratch covers it. -/
theorem scover0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) (y : S4x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4x512.size (by sl_kernel_rfl) y

/-- Last tile: what the scratch holds afterwards. -/
def sout0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) : Vec F S4x512 .f32 :=
  VS0_0.read (Elt F) (VS0_0.writes (Elt F) VS0_0.junk (kernelRun0_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output buffer and the scratch hold after each point -/

/-- The pair (output buffer, scratch) after the body at position `n`: the case the position selects, run on the point's
    input blocks, a later tile of a row taking the scratch the point before left. -/
def outsAt0 (c : Dev nD) : (n : ℕ) → n < cfg0.N → Vec F S4x512 .f32 × Vec F S4x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first tile. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant (the scratch at anything); after point `n` the scratch at what that point
    left, the other region's buffers and the generator register as they were. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 c ∗ (∃ r, prngReg c r)) := by
  cases n with
  | zero => exact absurd rfl hz
  | succ n => rfl

/-! ## The pipeline's proof data -/

/-- The arrays as the region finds them; after the body each input's buffer at its block and the output's at `outsAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem recorded0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position of the tile in its row says which case the
    point is in; the invariant hands the body the scratch (at anything before the first point, else at what the point
    before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · by_cases h1 : t.val % 16 = 15
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := PhiA0_split c $$ HΦ
        icases HΦ' with ⟨HS0, Hoth, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the resting one back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht]
  iintro ⟨HS0, Hoth, Hg⟩
  iapply (PhiA0_join c)
  isplitl [HS0]; · iexists _; iexact HS0
  isplitl [Hoth]; · iexact Hoth
  iexact Hg

end

end Cert.Kernel.Fr

end
-- ==== Proof.K.Rest1.lean ====
/-
  Region 1's resting invariant taken apart: the scratch that carries the running minimum, the scoped buffers that belong
  to the other region (untouched here, each whole at some contents), and the generator register.
-/
import proofs.«156689_j43800076484722_1_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the other region, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scratch of this region as a whole memref. -/
abbrev scM1_0 : Memref sig .tc .vmem S4x512 .f32 := Memref.whole cc1_scratch0

theorem PhiA1_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant opened: the scratch at some contents, the other region's buffers, the generator register. -/
theorem PhiA1_split (c : Dev nD) :
    (Pipeline.ΦA spec1 c : sProp 𝕄) ⊢ iprop((∃ d, owns (c : Thread nD τ) scM1_0 fullShare d) ∗ others1 c ∗ (∃ r, prngReg c r)) := by
  rw [PhiA1_eq]; unfold others1
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- And closed again. -/
theorem PhiA1_join (c : Dev nD) :
    iprop((∃ d, owns (c : Thread nD τ) scM1_0 fullShare d) ∗ others1 c ∗ (∃ r, prngReg c r)) ⊢ (Pipeline.ΦA spec1 c : sProp 𝕄) := by
  rw [PhiA1_eq]; unfold others1
  iintro ⟨HS, ⟨H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.Fr

end
-- ==== Proof.K.Runs1.lean ====
/-
  Region 1 (the second nearest-neighbour call), what its three control cases share: the blocks its two input windows
  hold at a grid point, read off the arrays as the region finds them; the two branch conditions of the body decided
  over the 16 × 16 grid (the reset of the running minimum at the first tile of the reduced axis, the write of the
  output block at the last); where the output window is idle; and the kernel's staging and scratch memrefs.
-/
import proofs.«156689_j43800076484722_1_alg».proof.Proof.K.Rest1
import proofs.«156689_j43800076484722_1_alg».proof.Proof.Gen.Kernel.Launch
import proofs.«156689_j43800076484722_1_alg».proof.Proof.Gen.Kernel.Skeleton
import proofs.«156689_j43800076484722_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point: fetched where the row tile changes, and in between
    the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- "This is the first tile of the reduced axis" (the running minimum is reset to +∞), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last tile of the reduced axis" (the running minimum is written to the output block). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last tile the body stores nothing into the output window, -/
theorem idleAt1_2 : ∀ t : Fin cfg1.N, ¬cond1_1 (grid1.coords t) → cfg1.idle 2 (grid1.coords t) = true := by decide +kernel
/-- and the block is not written back there. -/
theorem noFlush1_2 : ∀ t : Fin cfg1.N, ¬cond1_1 (grid1.coords t) → (cfg1.win 2).flush t = false := by decide +kernel
/-- At the last tile the output window is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S4x512 .f32 := (Memref.whole cc1_stg2_0 : Memref sig .tc .vmem S4x512 .f32).view
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
/-- The scratch that carries the running minimum between grid points, as a view. -/
abbrev VS1_0 : View sig .tc .vmem S4x512 .f32 := scM1_0.view

end Cert.Kernel.Fr

end
-- ==== Proof.K.Run1A.lean ====
/-
  Region 1, the kernel body run once in the case of the FIRST tile of the reduced axis (the running minimum is reset; nothing goes to the output): on whole staging memrefs holding the two input blocks the body runs to
  its end, leaving the inputs as they were and the scratch (and, at the last tile, the output buffer) holding what its
  stores wrote; the pieces written are the witness the run finds.
-/
import proofs.«156689_j43800076484722_1_alg».proof.Proof.K.Runs1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First tile: the scratch is found at anything, reset to +∞ and then holds the minimum with this tile's distances; the
    idle output buffer is handed back untouched. -/
noncomputable def kernelRun1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run1B.lean ====
/-
  Region 1, the kernel body run once in the case of a MIDDLE tile of the reduced axis (neither the first nor the last): on whole staging memrefs holding the two input blocks the body runs to
  its end, leaving the inputs as they were and the scratch (and, at the last tile, the output buffer) holding what its
  stores wrote; the pieces written are the witness the run finds.
-/
import proofs.«156689_j43800076484722_1_alg».proof.Proof.K.Run1A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Middle tile: the scratch is found at what the point before left and ends at the minimum of that with this tile's
    distances; the idle output buffer is handed back untouched. -/
noncomputable def kernelRun1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run1C.lean ====
/-
  Region 1, the kernel body run once in the case of the LAST tile of the reduced axis (the running minimum goes to the output block): on whole staging memrefs holding the two input blocks the body runs to
  its end, leaving the inputs as they were and the scratch (and, at the last tile, the output buffer) holding what its
  stores wrote; the pieces written are the witness the run finds.
-/
import proofs.«156689_j43800076484722_1_alg».proof.Proof.K.Run1B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Last tile: the scratch is found at what the point before left and ends at the minimum of that with this tile's
    distances, which is also stored whole into the output buffer (found at anything). -/
noncomputable def kernelRun1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Frame1.lean ====
/-
  Region 1, the frame of the second nearest-neighbour call: what each control case leaves in the scratch that carries the
  running minimum and in the output buffer; what they hold after each grid point, by recursion on the point (the first
  tile of a row of tiles resets, every later tile takes what the point before left); the region's invariant, which after
  any point holds the scratch at exactly those contents; the proof data of the pipeline and the body obligation at every
  point, by cases on the tile's position in its row.
-/
import proofs.«156689_j43800076484722_1_alg».proof.Proof.K.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- First tile: nothing is stored into the output window (it is idle there): a placeholder nothing consults. -/
def out1_A_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) : Vec F S4x512 .f32 :=
  VO1_2.read (Elt F) (VO1_2.writes (Elt F) VO1_2.junk (kernelRun1_A c i arg2 harg2 arg3 harg3 arg4 harg4 arg5 harg5 hc0 hc1 x0 x1).1)

/-- First tile: the stores into the scratch cover it. -/
theorem scover1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) (y : S4x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S4x512.size (by sl_kernel_rfl) y

/-- First tile: what the scratch holds afterwards. -/
def sout1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) : Vec F S4x512 .f32 :=
  VS1_0.read (Elt F) (VS1_0.writes (Elt F) VS1_0.junk (kernelRun1_A c i arg2 harg2 arg3 harg3 arg4 harg4 arg5 harg5 hc0 hc1 x0 x1).2.1)

/-- Middle tile: nothing is stored into the output window: a placeholder nothing consults. -/
def out1_B_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) : Vec F S4x512 .f32 :=
  VO1_2.read (Elt F) (VO1_2.writes (Elt F) VO1_2.junk (kernelRun1_B c i arg2 harg2 arg3 harg3 arg4 harg4 arg5 harg5 hc0 hc1 x0 x1 xs0).1)

/-- Middle tile: the store into the scratch covers it. -/
theorem scover1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) (y : S4x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S4x512.size (by sl_kernel_rfl) y

/-- Middle tile: what the scratch holds afterwards. -/
def sout1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) : Vec F S4x512 .f32 :=
  VS1_0.read (Elt F) (VS1_0.writes (Elt F) VS1_0.junk (kernelRun1_B c i arg2 harg2 arg3 harg3 arg4 harg4 arg5 harg5 hc0 hc1 x0 x1 xs0).2.1)

/-- Last tile: the store into the output buffer covers it. -/
theorem cover1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) (y : S4x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S4x512.size (by sl_kernel_rfl) y

/-- Last tile: what the output buffer holds afterwards. -/
def out1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) : Vec F S4x512 .f32 :=
  VO1_2.read (Elt F) (VO1_2.writes (Elt F) VO1_2.junk (kernelRun1_C c i arg2 harg2 arg3 harg3 arg4 harg4 arg5 harg5 hc0 hc1 x0 x1 xs0).1)

/-- Last tile: the store into the scratch covers it. -/
theorem scover1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) (y : S4x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S4x512.size (by sl_kernel_rfl) y

/-- Last tile: what the scratch holds afterwards. -/
def sout1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) : Vec F S4x512 .f32 :=
  VS1_0.read (Elt F) (VS1_0.writes (Elt F) VS1_0.junk (kernelRun1_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output buffer and the scratch hold after each point -/

/-- The pair (output buffer, scratch) after the body at position `n`: the case the position selects, run on the point's
    input blocks, a later tile of a row taking the scratch the point before left. -/
def outsAt1 (c : Dev nD) : (n : ℕ) → n < cfg1.N → Vec F S4x512 .f32 × Vec F S4x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first tile. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle tile, over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant (the scratch at anything); after point `n` the scratch at what that point
    left, the other region's buffers and the generator register as they were. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 c ∗ (∃ r, prngReg c r)) := by
  cases n with
  | zero => exact absurd rfl hz
  | succ n => rfl

/-! ## The pipeline's proof data -/

/-- The arrays as the region finds them; after the body each input's buffer at its block and the output's at `outsAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the position of the tile in its row says which case the
    point is in; the invariant hands the body the scratch (at anything before the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := PhiA1_split c $$ HΦ
        icases HΦ' with ⟨HS0, Hoth, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting one back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht]
  iintro ⟨HS0, Hoth, Hg⟩
  iapply (PhiA1_join c)
  isplitl [HS0]; · iexists _; iexact HS0
  isplitl [Hoth]; · iexact Hoth
  iexact Hg

end

end Cert.Kernel.Fr

end
-- ==== Proof.K.Launch.lean ====
/- THE LAUNCH of the kernel program: @main is two TensorCore regions in a row and nothing else. The buffer
   contents at the three boundaries (launch, between the regions, return) as a fold from the launch memory; each region
   as a segment over "every unscoped buffer at the boundary's contents, the generator register at some state, nothing
   owed"; the run of the two segments; what the final memory holds at the two results and at the two arguments. -/
import proofs.«156689_j43800076484722_1_alg».proof.Proof.K.Frame0
import proofs.«156689_j43800076484722_1_alg».proof.Proof.K.Frame1
import proofs.«156689_j43800076484722_1_alg».proof.Proof.Gen.Kernel.Launch
import proofs.«156689_j43800076484722_1_alg».proof.Proof.Gen.Kernel.Skeleton
import proofs.«156689_j43800076484722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core c's buffers at launch: the launch memory. -/
abbrev W0 : Dev nD → Valuation τ sig (Elt F) := fun c b => (s₀ m ρ).mem ((c : Dev nD), b)
/-- The same read at the TensorCore's references: what region 0 is entered at. -/
abbrev Vin0 : (c : Dev nD) → (b : Ref sig .tc) → Buf (Elt F) ((c : Thread nD τ).loc b) := fun c b => W0 m ρ c b

/-- Between the regions: region 0's arrays at what its pipeline leaves (an input as entered, the output's write-backs
    folded), every other buffer as launched. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what region 1 is entered at. -/
abbrev Vin1 : (c : Dev nD) → (b : Ref sig .tc) → Buf (Elt F) ((c : Thread nD τ).loc b) := fun c b => W1 m ρ c b

/-- At the return: region 1's arrays at what its pipeline leaves, every other buffer as region 1 found it. -/
def W2 (c : Dev nD) : Valuation τ sig (Elt F) :=
  Pipeline.withArrays spec1 c (W1 m ρ c) fun w => (dat1 (Vin1 m ρ) c).arrAt w cfg1.N
theorem W2_arr (c : Dev nD) (w : Fin cfg1.W) :
    W2 m ρ c (Proc.devRef .tc (Pipeline.arrRef spec1 w)) = (dat1 (Vin1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev Vout : (c : Dev nD) → (b : Ref sig .tc) → Buf (Elt F) ((c : Thread nD τ).loc b) := fun c b => W2 m ρ c b

/-! ### What each region is entered at, at the arguments -/

theorem Vin0_arg0 (c : Dev nD) : Vin0 m ρ c main_arg0 = m ((c : Thread nD τ).loc main_arg0) := rfl
theorem Vin0_arg1 (c : Dev nD) : Vin0 m ρ c main_arg1 = m ((c : Thread nD τ).loc main_arg1) := rfl

/-- Region 0 reads the first argument through input window 0, which is never written back. -/
theorem Vin1_arg0 (c : Dev nD) : Vin1 m ρ c main_arg0 = m ((c : Thread nD τ).loc main_arg0) :=
  (W1_arr m ρ c 0).trans (((dat0 (Vin0 m ρ) c).arrAt_in 0 rfl _).trans (A_eq0 (Vin0 m ρ) c 0))
/-- Region 0 reads the second argument through input window 1. -/
theorem Vin1_arg1 (c : Dev nD) : Vin1 m ρ c main_arg1 = m ((c : Thread nD τ).loc main_arg1) :=
  (W1_arr m ρ c 1).trans (((dat0 (Vin0 m ρ) c).arrAt_in 1 rfl _).trans (A_eq0 (Vin0 m ρ) c 1))

/-! ### What the return finds at the results and at the arguments -/

/-- The first result is region 0's output array, which region 1 bypasses. -/
theorem W2_v0 (c : Dev nD) : W2 m ρ c (Proc.devRef .tc main_v0) = (dat0 (Vin0 m ρ) c).arrAt 2 cfg0.N :=
  (W2_of_ne m ρ c main_v0 (by decide)).trans (W1_arr m ρ c 2)
/-- The second result is region 1's output array. -/
theorem W2_v1 (c : Dev nD) : W2 m ρ c (Proc.devRef .tc main_v1) = (dat1 (Vin1 m ρ) c).arrAt 2 cfg1.N :=
  W2_arr m ρ c 2
/-- Region 1 reads the first argument through its input window 1. -/
theorem W2_arg0 (c : Dev nD) : W2 m ρ c (Proc.devRef .tc main_arg0) = m ((c : Thread nD τ).loc main_arg0) :=
  (W2_arr m ρ c 1).trans (((dat1 (Vin1 m ρ) c).arrAt_in 1 rfl _).trans ((A_eq1 (Vin1 m ρ) c 1).trans (Vin1_arg0 m ρ c)))
/-- Region 1 reads the second argument through its input window 0. -/
theorem W2_arg1 (c : Dev nD) : W2 m ρ c (Proc.devRef .tc main_arg1) = m ((c : Thread nD τ).loc main_arg1) :=
  (W2_arr m ρ c 0).trans (((dat1 (Vin1 m ρ) c).arrAt_in 0 rfl _).trans ((A_eq1 (Vin1 m ρ) c 0).trans (Vin1_arg1 m ρ c)))

/-- At each region's exit its arrays hold what the pipeline leaves and every other buffer what it held at entry. -/
theorem left0 (c : Dev nD) (w : Fin cfg0.W) : (dat0 (Vin0 m ρ) c).arrAt w cfg0.N = Vin1 m ρ c (Pipeline.arrRef spec0 w) :=
  (W1_arr m ρ c w).symm
theorem kept0 (c : Dev nD) : ∀ b, b ∉ Finset.univ.image (Pipeline.arrRef spec0) → Vin1 m ρ c b = Vin0 m ρ c b :=
  fun b hb => W1_of_ne m ρ c b fun w e => hb (Finset.mem_image.mpr ⟨w, Finset.mem_univ _, e⟩)
theorem left1 (c : Dev nD) (w : Fin cfg1.W) : (dat1 (Vin1 m ρ) c).arrAt w cfg1.N = Vout m ρ c (Pipeline.arrRef spec1 w) :=
  (W2_arr m ρ c w).symm
theorem kept1 (c : Dev nD) : ∀ b, b ∉ Finset.univ.image (Pipeline.arrRef spec1) → Vout m ρ c b = Vin1 m ρ c b :=
  fun b hb => W2_of_ne m ρ c b fun w e => hb (Finset.mem_image.mpr ⟨w, Finset.mem_univ _, e⟩)

/-! ## The proof data family and the thread state -/

/-- No pipeline has a prefetched table. -/
abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => dat0 (Vin0 m ρ) c
  | ⟨1, _⟩ => fun c => dat1 (Vin1 m ρ) c
abbrev plain : Variants := Variants.none
/-- No core owes another anything: no pair carries a level. -/
abbrev noPairs : GSem nD τ sig → Finset Unit := fun _ => ∅
abbrev noLevel : GSem nD τ sig → Unit → ℕ := fun _ _ => 0
/-- What rides beside the buffers: the generator register at some state, and the core owing nothing. -/
abbrev riding (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the return's contents, the register at some state. -/
abbrev atReturn (c : Dev nD) : sProp 𝕄 := iprop(StableHlo.held (c : Thread nD τ) (Pipeline.ucRefs τ sig) (W2 m ρ c) ∗ ∃ r, prngReg c r)

/-! ## The core's dues around a region that owes nothing -/

/-- A core owing nothing, whatever it has recorded, owes what proof data that owe nothing at a point and bound the
    recorded pairs by everything ask there. -/
theorem owesAt_of_nothing {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

/-- And back: such proof data's dues at a point are the core owing nothing. -/
theorem nothing_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

set_option backward.isDefEq.respectTransparency.types false in
/-- REGION 0: entered from every unscoped buffer at the launch contents, left at the contents between the regions. -/
def reg0 : Pipeline.RegionSeg (pcfgs (F := F)) noTables (pdats m ρ) () defs₀ plain noPairs noLevel 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ noPairs noLevel 0 fun c t => owed0 (Vin0 m ρ) c t
  pre c := iprop(StableHlo.held (c : Thread nD τ) (Pipeline.ucRefs τ sig) (W0 m ρ c) ∗ riding c)
  post c := iprop(StableHlo.held (c : Thread nD τ) (Pipeline.ucRefs τ sig) (W1 m ρ c) ∗ riding c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) noTables (pdats m ρ) launch0.win launch0.arr_whole c
      (fun w => share0 (Vin0 m ρ) c w) (Vin0 m ρ c) fun w => A_eq0 (Vin0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (dat0 (Vin0 m ρ) c) 0 (owed0 (Vin0 m ρ) c 0) (recorded0 (Vin0 m ρ) c 0))
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    refine BIBase.Entails.trans (hout0 (Vin0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) (fun w => share0 (Vin0 m ρ) c w)
      (Vin0 m ρ c) (Vin1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (dat0 (Vin0 m ρ) c) (Fin.last cfg0.N) (owed0 (Vin0 m ρ) c _))
    iexact HO

set_option backward.isDefEq.respectTransparency.types false in
/-- REGION 1: entered from every unscoped buffer at the contents between the regions, left at the return's. -/
def reg1 : Pipeline.RegionSeg (pcfgs (F := F)) noTables (pdats m ρ) () defs₀ plain noPairs noLevel 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ noPairs noLevel 1 fun c t => owed1 (Vin1 m ρ) c t
  pre c := iprop(StableHlo.held (c : Thread nD τ) (Pipeline.ucRefs τ sig) (W1 m ρ c) ∗ riding c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) noTables (pdats m ρ) launch1.win launch1.arr_whole c
      (fun w => share1 (Vin1 m ρ) c w) (Vin1 m ρ c) fun w => A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (dat1 (Vin1 m ρ) c) 0 (owed1 (Vin1 m ρ) c 0) (recorded1 (Vin1 m ρ) c 0))
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    refine BIBase.Entails.trans (hout1 (Vin1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) (fun w => share1 (Vin1 m ρ) c w)
      (Vin1 m ρ c) (Vout m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (nothing_of_owesAt (dat1 (Vin1 m ρ) c) (Fin.last cfg1.N) (owed1 (Vin1 m ρ) c _))
    iexact HO

/-! ## @main as segments, and the launch -/

/-- @main's two segments in order: a region per pallas_call. -/
abbrev segments : List (Pipeline.Seg (pcfgs (F := F)) noTables (pdats m ρ) () defs₀ plain noPairs noLevel) :=
  [ .region (reg0 m ρ), .region (reg1 m ρ) ]
/-- @main is the run of the segments. -/
theorem main_run (c : Dev nD) : main (F := F) c = Pipeline.Seg.run (segments m ρ) :=
  main_segs noTables (pdats m ρ) () plain noPairs noLevel (reg0 m ρ) (reg1 m ρ) c

set_option backward.isDefEq.respectTransparency.types false in
/-- THE RUN: from any memory with zero counters every weakly fair execution of @main terminates, and the final memory
    holds at each result the array its region's pipeline leaves and at each argument what was launched. -/
theorem run_values : θ_run defs (onTc (τ := τ) (main (F := F))) ⟨m, fun _ => 0, ρ⟩ (fun r => ∀ c : Dev nD,
      r.2.mem ((c.tc : Thread nD τ).loc main_v0) = (dat0 (Vin0 m ρ) c).arrAt 2 cfg0.N
      ∧ r.2.mem ((c.tc : Thread nD τ).loc main_v1) = (dat1 (Vin1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (pdats m ρ) () cellOf_inj emb₁ defs₀ plain noPairs noLevel m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := atReturn m ρ)
    (hch := ⟨fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v0 (by decide))).trans (W2_v0 m ρ c),
       (h c _ (mem_uc main_v1 (by decide))).trans (W2_v1 m ρ c),
       (h c _ (mem_uc main_arg0 (by decide))).trans (W2_arg0 m ρ c),
       (h c _ (mem_uc main_arg1 (by decide))).trans (W2_arg1 m ρ c)⟩)

/-- THE FRAME: every weakly fair execution of @main terminates and the final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.2.1, (h c).2.2.2⟩) (run_values m ρ)

end Cert.Kernel.Fr

end
-- ==== Proof.KI.Rest0.lean ====
/-
  Region 0's resting invariant taken apart: the scratch that carries the running minimum, the scoped buffers that belong
  to the other region (untouched here, each whole at some contents), and the generator register.
-/
import proofs.«156689_j43800076484722_1_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the other region, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scratch of this region as a whole memref. -/
abbrev scM0_0 : Memref sig .tc .vmem S4x512 .f32 := Memref.whole cc0_scratch0

theorem PhiA0_eq (c : Dev nD) :
    (Pipeline.ΦA spec0 c : sProp 𝕄) = iprop(iprop((∃ d, owns (c : Thread nD τ) scM0_0 fullShare d) ∗ others0 c) ∗ (∃ r, prngReg c r)) := by
  unfold Pipeline.ΦA others0; rw [scopedRest0_eq]; simp only [scM0_0, owns_whole]; try rfl

/-- The invariant opened: the scratch at some contents, the other region's buffers, the generator register. -/
theorem PhiA0_split (c : Dev nD) :
    (Pipeline.ΦA spec0 c : sProp 𝕄) ⊢ iprop((∃ d, owns (c : Thread nD τ) scM0_0 fullShare d) ∗ others0 c ∗ (∃ r, prngReg c r)) := by
  rw [PhiA0_eq]
  iintro ⟨⟨HS, Ho⟩, Hg⟩
  isplitl [HS]; · iexact HS
  isplitl [Ho]; · iexact Ho
  iexact Hg

/-- And closed again. -/
theorem PhiA0_join (c : Dev nD) :
    iprop((∃ d, owns (c : Thread nD τ) scM0_0 fullShare d) ∗ others0 c ∗ (∃ r, prngReg c r)) ⊢ (Pipeline.ΦA spec0 c : sProp 𝕄) := by
  rw [PhiA0_eq]
  iintro ⟨HS, Ho, Hg⟩
  isplitl [HS Ho]
  · isplitl [HS]; · iexact HS
    iexact Ho
  iexact Hg

end Cert.KernelIdeal.Fr

end
-- ==== Proof.KI.Runs0.lean ====
/-
  Region 0 (the first nearest-neighbour call), what its three control cases share: the blocks its two input windows
  hold at a grid point, read off the arrays as the region finds them; the two branch conditions of the body decided
  over the 16 × 16 grid (the reset of the running minimum at the first tile of the reduced axis, the write of the
  output block at the last); where the output window is idle; and the kernel's staging and scratch memrefs.
-/
import proofs.«156689_j43800076484722_1_alg».proof.Proof.KI.Rest0
import proofs.«156689_j43800076484722_1_alg».proof.Proof.Gen.KernelIdeal.Launch
import proofs.«156689_j43800076484722_1_alg».proof.Proof.Gen.KernelIdeal.Skeleton
import proofs.«156689_j43800076484722_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point: fetched where the row tile changes, and in between
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the first tile of the reduced axis" (the running minimum is reset to +∞), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile of the reduced axis" (the running minimum is written to the output block). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the body stores nothing into the output window, -/
theorem idleAt0_2 : ∀ t : Fin cfg0.N, ¬cond0_1 (grid0.coords t) → cfg0.idle 2 (grid0.coords t) = true := by decide +kernel
/-- and the block is not written back there. -/
theorem noFlush0_2 : ∀ t : Fin cfg0.N, ¬cond0_1 (grid0.coords t) → (cfg0.win 2).flush t = false := by decide +kernel
/-- At the last tile the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S4x512 .f32 := (Memref.whole cc0_stg2_0 : Memref sig .tc .vmem S4x512 .f32).view
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
/-- The scratch that carries the running minimum between grid points, as a view. -/
abbrev VS0_0 : View sig .tc .vmem S4x512 .f32 := scM0_0.view

end Cert.KernelIdeal.Fr

end
-- ==== Proof.KI.Run0A.lean ====
/-
  Region 0, the kernel body run once in the case of the FIRST tile of the reduced axis (the running minimum is reset; nothing goes to the output): on whole staging memrefs holding the two input blocks the body runs to
  its end, leaving the inputs as they were and the scratch (and, at the last tile, the output buffer) holding what its
  stores wrote; the pieces written are the witness the run finds.
-/
import proofs.«156689_j43800076484722_1_alg».proof.Proof.KI.Runs0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First tile: the scratch is found at anything, reset to +∞ and then holds the minimum with this tile's distances; the
    idle output buffer is handed back untouched. -/
noncomputable def kernelRun0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run0B.lean ====
/-
  Region 0, the kernel body run once in the case of a MIDDLE tile of the reduced axis (neither the first nor the last): on whole staging memrefs holding the two input blocks the body runs to
  its end, leaving the inputs as they were and the scratch (and, at the last tile, the output buffer) holding what its
  stores wrote; the pieces written are the witness the run finds.
-/
import proofs.«156689_j43800076484722_1_alg».proof.Proof.KI.Run0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Middle tile: the scratch is found at what the point before left and ends at the minimum of that with this tile's
    distances; the idle output buffer is handed back untouched. -/
noncomputable def kernelRun0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run0C.lean ====
/-
  Region 0, the kernel body run once in the case of the LAST tile of the reduced axis (the running minimum goes to the output block): on whole staging memrefs holding the two input blocks the body runs to
  its end, leaving the inputs as they were and the scratch (and, at the last tile, the output buffer) holding what its
  stores wrote; the pieces written are the witness the run finds.
-/
import proofs.«156689_j43800076484722_1_alg».proof.Proof.KI.Run0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Last tile: the scratch is found at what the point before left and ends at the minimum of that with this tile's
    distances, which is also stored whole into the output buffer (found at anything). -/
noncomputable def kernelRun0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Frame0.lean ====
/-
  Region 0, the frame of the first nearest-neighbour call: what each control case leaves in the scratch that carries the
  running minimum and in the output buffer; what they hold after each grid point, by recursion on the point (the first
  tile of a row of tiles resets, every later tile takes what the point before left); the region's invariant, which after
  any point holds the scratch at exactly those contents; the proof data of the pipeline and the body obligation at every
  point, by cases on the tile's position in its row.
-/
import proofs.«156689_j43800076484722_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- First tile: nothing is stored into the output window (it is idle there): a placeholder nothing consults. -/
def out0_A_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) : Vec F S4x512 .f32 :=
  VO0_2.read (Elt F) (VO0_2.writes (Elt F) VO0_2.junk (kernelRun0_A c i arg2 harg2 arg3 harg3 arg4 harg4 arg5 harg5 hc0 hc1 x0 x1).1)

/-- First tile: the stores into the scratch cover it. -/
theorem scover0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) (y : S4x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4x512.size (by sl_kernel_rfl) y

/-- First tile: what the scratch holds afterwards. -/
def sout0_A_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x512x3 .f32) : Vec F S4x512 .f32 :=
  VS0_0.read (Elt F) (VS0_0.writes (Elt F) VS0_0.junk (kernelRun0_A c i arg2 harg2 arg3 harg3 arg4 harg4 arg5 harg5 hc0 hc1 x0 x1).2.1)

/-- Middle tile: nothing is stored into the output window: a placeholder nothing consults. -/
def out0_B_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) : Vec F S4x512 .f32 :=
  VO0_2.read (Elt F) (VO0_2.writes (Elt F) VO0_2.junk (kernelRun0_B c i arg2 harg2 arg3 harg3 arg4 harg4 arg5 harg5 hc0 hc1 x0 x1 xs0).1)

/-- Middle tile: the store into the scratch covers it. -/
theorem scover0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) (y : S4x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4x512.size (by sl_kernel_rfl) y

/-- Middle tile: what the scratch holds afterwards. -/
def sout0_B_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x512x3 .f32) (xs0 : Vec F S4x512 .f32) : Vec F S4x512 .f32 :=
  VS0_0.read (Elt F) (VS0_0.writes (Elt F) VS0_0.junk (kernelRun0_B c i arg2 harg2 arg3 harg3 arg4 harg4 arg5 harg5 hc0 hc1 x0 x1 xs0).2.1)

/-- Last tile: the store into the output buffer covers it. -/
theorem cover0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) (y : S4x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4x512.size (by sl_kernel_rfl) y

/-- Last tile: what the output buffer holds afterwards. -/
def out0_C_2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) : Vec F S4x512 .f32 :=
  VO0_2.read (Elt F) (VO0_2.writes (Elt F) VO0_2.junk (kernelRun0_C c i arg2 harg2 arg3 harg3 arg4 harg4 arg5 harg5 hc0 hc1 x0 x1 xs0).1)

/-- Last tile: the store into the scratch covers it. -/
theorem scover0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) (y : S4x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4x512.size (by sl_kernel_rfl) y

/-- Last tile: what the scratch holds afterwards. -/
def sout0_C_0 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x512x3 .f32) (xs0 : Vec F S4x512 .f32) : Vec F S4x512 .f32 :=
  VS0_0.read (Elt F) (VS0_0.writes (Elt F) VS0_0.junk (kernelRun0_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output buffer and the scratch hold after each point -/

/-- The pair (output buffer, scratch) after the body at position `n`: the case the position selects, run on the point's
    input blocks, a later tile of a row taking the scratch the point before left. -/
def outsAt0 (c : Dev nD) : (n : ℕ) → n < cfg0.N → Vec F S4x512 .f32 × Vec F S4x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first tile. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant (the scratch at anything); after point `n` the scratch at what that point
    left, the other region's buffers and the generator register as they were. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 c ∗ (∃ r, prngReg c r)) := by
  cases n with
  | zero => exact absurd rfl hz
  | succ n => rfl

/-! ## The pipeline's proof data -/

/-- The arrays as the region finds them; after the body each input's buffer at its block and the output's at `outsAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem recorded0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position of the tile in its row says which case the
    point is in; the invariant hands the body the scratch (at anything before the first point, else at what the point
    before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · by_cases h1 : t.val % 16 = 15
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := PhiA0_split c $$ HΦ
        icases HΦ' with ⟨HS0, Hoth, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the resting one back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht]
  iintro ⟨HS0, Hoth, Hg⟩
  iapply (PhiA0_join c)
  isplitl [HS0]; · iexists _; iexact HS0
  isplitl [Hoth]; · iexact Hoth
  iexact Hg

end

end Cert.KernelIdeal.Fr

end
-- ==== Proof.KI.Rest1.lean ====
/-
  Region 1's resting invariant taken apart: the scratch that carries the running minimum, the scoped buffers that belong
  to the other region (untouched here, each whole at some contents), and the generator register.
-/
import proofs.«156689_j43800076484722_1_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the other region, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scratch of this region as a whole memref. -/
abbrev scM1_0 : Memref sig .tc .vmem S4x512 .f32 := Memref.whole cc1_scratch0

theorem PhiA1_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant opened: the scratch at some contents, the other region's buffers, the generator register. -/
theorem PhiA1_split (c : Dev nD) :
    (Pipeline.ΦA spec1 c : sProp 𝕄) ⊢ iprop((∃ d, owns (c : Thread nD τ) scM1_0 fullShare d) ∗ others1 c ∗ (∃ r, prngReg c r)) := by
  rw [PhiA1_eq]; unfold others1
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- And closed again. -/
theorem PhiA1_join (c : Dev nD) :
    iprop((∃ d, owns (c : Thread nD τ) scM1_0 fullShare d) ∗ others1 c ∗ (∃ r, prngReg c r)) ⊢ (Pipeline.ΦA spec1 c : sProp 𝕄) := by
  rw [PhiA1_eq]; unfold others1
  iintro ⟨HS, ⟨H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Fr

end
-- ==== Proof.KI.Runs1.lean ====
/-
  Region 1 (the second nearest-neighbour call), what its three control cases share: the blocks its two input windows
  hold at a grid point, read off the arrays as the region finds them; the two branch conditions of the body decided
  over the 16 × 16 grid (the reset of the running minimum at the first tile of the reduced axis, the write of the
  output block at the last); where the output window is idle; and the kernel's staging and scratch memrefs.
-/
import proofs.«156689_j43800076484722_1_alg».proof.Proof.KI.Rest1
import proofs.«156689_j43800076484722_1_alg».proof.Proof.Gen.KernelIdeal.Launch
import proofs.«156689_j43800076484722_1_alg».proof.Proof.Gen.KernelIdeal.Skeleton
import proofs.«156689_j43800076484722_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point: fetched where the row tile changes, and in between
    the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- "This is the first tile of the reduced axis" (the running minimum is reset to +∞), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last tile of the reduced axis" (the running minimum is written to the output block). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last tile the body stores nothing into the output window, -/
theorem idleAt1_2 : ∀ t : Fin cfg1.N, ¬cond1_1 (grid1.coords t) → cfg1.idle 2 (grid1.coords t) = true := by decide +kernel
/-- and the block is not written back there. -/
theorem noFlush1_2 : ∀ t : Fin cfg1.N, ¬cond1_1 (grid1.coords t) → (cfg1.win 2).flush t = false := by decide +kernel
/-- At the last tile the output window is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S4x512 .f32 := (Memref.whole cc1_stg2_0 : Memref sig .tc .vmem S4x512 .f32).view
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
/-- The scratch that carries the running minimum between grid points, as a view. -/
abbrev VS1_0 : View sig .tc .vmem S4x512 .f32 := scM1_0.view

end Cert.KernelIdeal.Fr

end
-- ==== Proof.KI.Run1A.lean ====
/-
  Region 1, the kernel body run once in the case of the FIRST tile of the reduced axis (the running minimum is reset; nothing goes to the output): on whole staging memrefs holding the two input blocks the body runs to
  its end, leaving the inputs as they were and the scratch (and, at the last tile, the output buffer) holding what its
  stores wrote; the pieces written are the witness the run finds.
-/
import proofs.«156689_j43800076484722_1_alg».proof.Proof.KI.Runs1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First tile: the scratch is found at anything, reset to +∞ and then holds the minimum with this tile's distances; the
    idle output buffer is handed back untouched. -/
noncomputable def kernelRun1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run1B.lean ====
/-
  Region 1, the kernel body run once in the case of a MIDDLE tile of the reduced axis (neither the first nor the last): on whole staging memrefs holding the two input blocks the body runs to
  its end, leaving the inputs as they were and the scratch (and, at the last tile, the output buffer) holding what its
  stores wrote; the pieces written are the witness the run finds.
-/
import proofs.«156689_j43800076484722_1_alg».proof.Proof.KI.Run1A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Middle tile: the scratch is found at what the point before left and ends at the minimum of that with this tile's
    distances; the idle output buffer is handed back untouched. -/
noncomputable def kernelRun1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (xi2 : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run1C.lean ====
/-
  Region 1, the kernel body run once in the case of the LAST tile of the reduced axis (the running minimum goes to the output block): on whole staging memrefs holding the two input blocks the body runs to
  its end, leaving the inputs as they were and the scratch (and, at the last tile, the output buffer) holding what its
  stores wrote; the pieces written are the witness the run finds.
-/
import proofs.«156689_j43800076484722_1_alg».proof.Proof.KI.Run1B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Last tile: the scratch is found at what the point before left and ends at the minimum of that with this tile's
    distances, which is also stored whole into the output buffer (found at anything). -/
noncomputable def kernelRun1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) :
    Σ' (L2 : List (View.Piece (Elt F) S4x512 .f32)), { LS0 : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Frame1.lean ====
/-
  Region 1, the frame of the second nearest-neighbour call: what each control case leaves in the scratch that carries the
  running minimum and in the output buffer; what they hold after each grid point, by recursion on the point (the first
  tile of a row of tiles resets, every later tile takes what the point before left); the region's invariant, which after
  any point holds the scratch at exactly those contents; the proof data of the pipeline and the body obligation at every
  point, by cases on the tile's position in its row.
-/
import proofs.«156689_j43800076484722_1_alg».proof.Proof.KI.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- First tile: nothing is stored into the output window (it is idle there): a placeholder nothing consults. -/
def out1_A_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) : Vec F S4x512 .f32 :=
  VO1_2.read (Elt F) (VO1_2.writes (Elt F) VO1_2.junk (kernelRun1_A c i arg2 harg2 arg3 harg3 arg4 harg4 arg5 harg5 hc0 hc1 x0 x1).1)

/-- First tile: the stores into the scratch cover it. -/
theorem scover1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) (y : S4x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S4x512.size (by sl_kernel_rfl) y

/-- First tile: what the scratch holds afterwards. -/
def sout1_A_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x512x3 .f32) : Vec F S4x512 .f32 :=
  VS1_0.read (Elt F) (VS1_0.writes (Elt F) VS1_0.junk (kernelRun1_A c i arg2 harg2 arg3 harg3 arg4 harg4 arg5 harg5 hc0 hc1 x0 x1).2.1)

/-- Middle tile: nothing is stored into the output window: a placeholder nothing consults. -/
def out1_B_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) : Vec F S4x512 .f32 :=
  VO1_2.read (Elt F) (VO1_2.writes (Elt F) VO1_2.junk (kernelRun1_B c i arg2 harg2 arg3 harg3 arg4 harg4 arg5 harg5 hc0 hc1 x0 x1 xs0).1)

/-- Middle tile: the store into the scratch covers it. -/
theorem scover1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) (y : S4x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S4x512.size (by sl_kernel_rfl) y

/-- Middle tile: what the scratch holds afterwards. -/
def sout1_B_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x512x3 .f32) (xs0 : Vec F S4x512 .f32) : Vec F S4x512 .f32 :=
  VS1_0.read (Elt F) (VS1_0.writes (Elt F) VS1_0.junk (kernelRun1_B c i arg2 harg2 arg3 harg3 arg4 harg4 arg5 harg5 hc0 hc1 x0 x1 xs0).2.1)

/-- Last tile: the store into the output buffer covers it. -/
theorem cover1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) (y : S4x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S4x512.size (by sl_kernel_rfl) y

/-- Last tile: what the output buffer holds afterwards. -/
def out1_C_2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) : Vec F S4x512 .f32 :=
  VO1_2.read (Elt F) (VO1_2.writes (Elt F) VO1_2.junk (kernelRun1_C c i arg2 harg2 arg3 harg3 arg4 harg4 arg5 harg5 hc0 hc1 x0 x1 xs0).1)

/-- Last tile: the store into the scratch covers it. -/
theorem scover1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) (y : S4x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S4x512.size (by sl_kernel_rfl) y

/-- Last tile: what the scratch holds afterwards. -/
def sout1_C_0 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x512x3 .f32) (xs0 : Vec F S4x512 .f32) : Vec F S4x512 .f32 :=
  VS1_0.read (Elt F) (VS1_0.writes (Elt F) VS1_0.junk (kernelRun1_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output buffer and the scratch hold after each point -/

/-- The pair (output buffer, scratch) after the body at position `n`: the case the position selects, run on the point's
    input blocks, a later tile of a row taking the scratch the point before left. -/
def outsAt1 (c : Dev nD) : (n : ℕ) → n < cfg1.N → Vec F S4x512 .f32 × Vec F S4x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first tile. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle tile, over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile, over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant (the scratch at anything); after point `n` the scratch at what that point
    left, the other region's buffers and the generator register as they were. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 c ∗ (∃ r, prngReg c r)) := by
  cases n with
  | zero => exact absurd rfl hz
  | succ n => rfl

/-! ## The pipeline's proof data -/

/-- The arrays as the region finds them; after the body each input's buffer at its block and the output's at `outsAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the position of the tile in its row says which case the
    point is in; the invariant hands the body the scratch (at anything before the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := PhiA1_split c $$ HΦ
        icases HΦ' with ⟨HS0, Hoth, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting one back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht]
  iintro ⟨HS0, Hoth, Hg⟩
  iapply (PhiA1_join c)
  isplitl [HS0]; · iexists _; iexact HS0
  isplitl [Hoth]; · iexact Hoth
  iexact Hg

end

end Cert.KernelIdeal.Fr

end
-- ==== Proof.KI.Launch.lean ====
/- THE LAUNCH of the kernel program: @main is two TensorCore regions in a row and nothing else. The buffer
   contents at the three boundaries (launch, between the regions, return) as a fold from the launch memory; each region
   as a segment over "every unscoped buffer at the boundary's contents, the generator register at some state, nothing
   owed"; the run of the two segments; what the final memory holds at the two results and at the two arguments. -/
import proofs.«156689_j43800076484722_1_alg».proof.Proof.KI.Frame0
import proofs.«156689_j43800076484722_1_alg».proof.Proof.KI.Frame1
import proofs.«156689_j43800076484722_1_alg».proof.Proof.Gen.KernelIdeal.Launch
import proofs.«156689_j43800076484722_1_alg».proof.Proof.Gen.KernelIdeal.Skeleton
import proofs.«156689_j43800076484722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core c's buffers at launch: the launch memory. -/
abbrev W0 : Dev nD → Valuation τ sig (Elt F) := fun c b => (s₀ m ρ).mem ((c : Dev nD), b)
/-- The same read at the TensorCore's references: what region 0 is entered at. -/
abbrev Vin0 : (c : Dev nD) → (b : Ref sig .tc) → Buf (Elt F) ((c : Thread nD τ).loc b) := fun c b => W0 m ρ c b

/-- Between the regions: region 0's arrays at what its pipeline leaves (an input as entered, the output's write-backs
    folded), every other buffer as launched. -/
def W1 (c : Dev nD) : Valuation τ sig (Elt F) :=
  Pipeline.withArrays spec0 c (W0 m ρ c) fun w => (dat0 (Vin0 m ρ) c).arrAt w cfg0.N
theorem W1_arr (c : Dev nD) (w : Fin cfg0.W) :
    W1 m ρ c (Proc.devRef .tc (Pipeline.arrRef spec0 w)) = (dat0 (Vin0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what region 1 is entered at. -/
abbrev Vin1 : (c : Dev nD) → (b : Ref sig .tc) → Buf (Elt F) ((c : Thread nD τ).loc b) := fun c b => W1 m ρ c b

/-- At the return: region 1's arrays at what its pipeline leaves, every other buffer as region 1 found it. -/
def W2 (c : Dev nD) : Valuation τ sig (Elt F) :=
  Pipeline.withArrays spec1 c (W1 m ρ c) fun w => (dat1 (Vin1 m ρ) c).arrAt w cfg1.N
theorem W2_arr (c : Dev nD) (w : Fin cfg1.W) :
    W2 m ρ c (Proc.devRef .tc (Pipeline.arrRef spec1 w)) = (dat1 (Vin1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev Vout : (c : Dev nD) → (b : Ref sig .tc) → Buf (Elt F) ((c : Thread nD τ).loc b) := fun c b => W2 m ρ c b

/-! ### What each region is entered at, at the arguments -/

theorem Vin0_arg0 (c : Dev nD) : Vin0 m ρ c main_arg0 = m ((c : Thread nD τ).loc main_arg0) := rfl
theorem Vin0_arg1 (c : Dev nD) : Vin0 m ρ c main_arg1 = m ((c : Thread nD τ).loc main_arg1) := rfl

/-- Region 0 reads the first argument through input window 0, which is never written back. -/
theorem Vin1_arg0 (c : Dev nD) : Vin1 m ρ c main_arg0 = m ((c : Thread nD τ).loc main_arg0) :=
  (W1_arr m ρ c 0).trans (((dat0 (Vin0 m ρ) c).arrAt_in 0 rfl _).trans (A_eq0 (Vin0 m ρ) c 0))
/-- Region 0 reads the second argument through input window 1. -/
theorem Vin1_arg1 (c : Dev nD) : Vin1 m ρ c main_arg1 = m ((c : Thread nD τ).loc main_arg1) :=
  (W1_arr m ρ c 1).trans (((dat0 (Vin0 m ρ) c).arrAt_in 1 rfl _).trans (A_eq0 (Vin0 m ρ) c 1))

/-! ### What the return finds at the results and at the arguments -/

/-- The first result is region 0's output array, which region 1 bypasses. -/
theorem W2_v0 (c : Dev nD) : W2 m ρ c (Proc.devRef .tc main_v0) = (dat0 (Vin0 m ρ) c).arrAt 2 cfg0.N :=
  (W2_of_ne m ρ c main_v0 (by decide)).trans (W1_arr m ρ c 2)
/-- The second result is region 1's output array. -/
theorem W2_v1 (c : Dev nD) : W2 m ρ c (Proc.devRef .tc main_v1) = (dat1 (Vin1 m ρ) c).arrAt 2 cfg1.N :=
  W2_arr m ρ c 2
/-- Region 1 reads the first argument through its input window 1. -/
theorem W2_arg0 (c : Dev nD) : W2 m ρ c (Proc.devRef .tc main_arg0) = m ((c : Thread nD τ).loc main_arg0) :=
  (W2_arr m ρ c 1).trans (((dat1 (Vin1 m ρ) c).arrAt_in 1 rfl _).trans ((A_eq1 (Vin1 m ρ) c 1).trans (Vin1_arg0 m ρ c)))
/-- Region 1 reads the second argument through its input window 0. -/
theorem W2_arg1 (c : Dev nD) : W2 m ρ c (Proc.devRef .tc main_arg1) = m ((c : Thread nD τ).loc main_arg1) :=
  (W2_arr m ρ c 0).trans (((dat1 (Vin1 m ρ) c).arrAt_in 0 rfl _).trans ((A_eq1 (Vin1 m ρ) c 0).trans (Vin1_arg1 m ρ c)))

/-- At each region's exit its arrays hold what the pipeline leaves and every other buffer what it held at entry. -/
theorem left0 (c : Dev nD) (w : Fin cfg0.W) : (dat0 (Vin0 m ρ) c).arrAt w cfg0.N = Vin1 m ρ c (Pipeline.arrRef spec0 w) :=
  (W1_arr m ρ c w).symm
theorem kept0 (c : Dev nD) : ∀ b, b ∉ Finset.univ.image (Pipeline.arrRef spec0) → Vin1 m ρ c b = Vin0 m ρ c b :=
  fun b hb => W1_of_ne m ρ c b fun w e => hb (Finset.mem_image.mpr ⟨w, Finset.mem_univ _, e⟩)
theorem left1 (c : Dev nD) (w : Fin cfg1.W) : (dat1 (Vin1 m ρ) c).arrAt w cfg1.N = Vout m ρ c (Pipeline.arrRef spec1 w) :=
  (W2_arr m ρ c w).symm
theorem kept1 (c : Dev nD) : ∀ b, b ∉ Finset.univ.image (Pipeline.arrRef spec1) → Vout m ρ c b = Vin1 m ρ c b :=
  fun b hb => W2_of_ne m ρ c b fun w e => hb (Finset.mem_image.mpr ⟨w, Finset.mem_univ _, e⟩)

/-! ## The proof data family and the thread state -/

/-- No pipeline has a prefetched table. -/
abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => dat0 (Vin0 m ρ) c
  | ⟨1, _⟩ => fun c => dat1 (Vin1 m ρ) c
abbrev plain : Variants := Variants.none
/-- No core owes another anything: no pair carries a level. -/
abbrev noPairs : GSem nD τ sig → Finset Unit := fun _ => ∅
abbrev noLevel : GSem nD τ sig → Unit → ℕ := fun _ _ => 0
/-- What rides beside the buffers: the generator register at some state, and the core owing nothing. -/
abbrev riding (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the return's contents, the register at some state. -/
abbrev atReturn (c : Dev nD) : sProp 𝕄 := iprop(StableHlo.held (c : Thread nD τ) (Pipeline.ucRefs τ sig) (W2 m ρ c) ∗ ∃ r, prngReg c r)

/-! ## The core's dues around a region that owes nothing -/

/-- A core owing nothing, whatever it has recorded, owes what proof data that owe nothing at a point and bound the
    recorded pairs by everything ask there. -/
theorem owesAt_of_nothing {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

/-- And back: such proof data's dues at a point are the core owing nothing. -/
theorem nothing_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

set_option backward.isDefEq.respectTransparency.types false in
/-- REGION 0: entered from every unscoped buffer at the launch contents, left at the contents between the regions. -/
def reg0 : Pipeline.RegionSeg (pcfgs (F := F)) noTables (pdats m ρ) () defs₀ plain noPairs noLevel 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ noPairs noLevel 0 fun c t => owed0 (Vin0 m ρ) c t
  pre c := iprop(StableHlo.held (c : Thread nD τ) (Pipeline.ucRefs τ sig) (W0 m ρ c) ∗ riding c)
  post c := iprop(StableHlo.held (c : Thread nD τ) (Pipeline.ucRefs τ sig) (W1 m ρ c) ∗ riding c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) noTables (pdats m ρ) launch0.win launch0.arr_whole c
      (fun w => share0 (Vin0 m ρ) c w) (Vin0 m ρ c) fun w => A_eq0 (Vin0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (dat0 (Vin0 m ρ) c) 0 (owed0 (Vin0 m ρ) c 0) (recorded0 (Vin0 m ρ) c 0))
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    refine BIBase.Entails.trans (hout0 (Vin0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) (fun w => share0 (Vin0 m ρ) c w)
      (Vin0 m ρ c) (Vin1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (dat0 (Vin0 m ρ) c) (Fin.last cfg0.N) (owed0 (Vin0 m ρ) c _))
    iexact HO

set_option backward.isDefEq.respectTransparency.types false in
/-- REGION 1: entered from every unscoped buffer at the contents between the regions, left at the return's. -/
def reg1 : Pipeline.RegionSeg (pcfgs (F := F)) noTables (pdats m ρ) () defs₀ plain noPairs noLevel 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ noPairs noLevel 1 fun c t => owed1 (Vin1 m ρ) c t
  pre c := iprop(StableHlo.held (c : Thread nD τ) (Pipeline.ucRefs τ sig) (W1 m ρ c) ∗ riding c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) noTables (pdats m ρ) launch1.win launch1.arr_whole c
      (fun w => share1 (Vin1 m ρ) c w) (Vin1 m ρ c) fun w => A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (dat1 (Vin1 m ρ) c) 0 (owed1 (Vin1 m ρ) c 0) (recorded1 (Vin1 m ρ) c 0))
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    refine BIBase.Entails.trans (hout1 (Vin1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) (fun w => share1 (Vin1 m ρ) c w)
      (Vin1 m ρ c) (Vout m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (nothing_of_owesAt (dat1 (Vin1 m ρ) c) (Fin.last cfg1.N) (owed1 (Vin1 m ρ) c _))
    iexact HO

/-! ## @main as segments, and the launch -/

/-- @main's two segments in order: a region per pallas_call. -/
abbrev segments : List (Pipeline.Seg (pcfgs (F := F)) noTables (pdats m ρ) () defs₀ plain noPairs noLevel) :=
  [ .region (reg0 m ρ), .region (reg1 m ρ) ]
/-- @main is the run of the segments. -/
theorem main_run (c : Dev nD) : main (F := F) c = Pipeline.Seg.run (segments m ρ) :=
  main_segs noTables (pdats m ρ) () plain noPairs noLevel (reg0 m ρ) (reg1 m ρ) c

set_option backward.isDefEq.respectTransparency.types false in
/-- THE RUN: from any memory with zero counters every weakly fair execution of @main terminates, and the final memory
    holds at each result the array its region's pipeline leaves and at each argument what was launched. -/
theorem run_values : θ_run defs (onTc (τ := τ) (main (F := F))) ⟨m, fun _ => 0, ρ⟩ (fun r => ∀ c : Dev nD,
      r.2.mem ((c.tc : Thread nD τ).loc main_v0) = (dat0 (Vin0 m ρ) c).arrAt 2 cfg0.N
      ∧ r.2.mem ((c.tc : Thread nD τ).loc main_v1) = (dat1 (Vin1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (pdats m ρ) () cellOf_inj emb₁ defs₀ plain noPairs noLevel m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := atReturn m ρ)
    (hch := ⟨fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v0 (by decide))).trans (W2_v0 m ρ c),
       (h c _ (mem_uc main_v1 (by decide))).trans (W2_v1 m ρ c),
       (h c _ (mem_uc main_arg0 (by decide))).trans (W2_arg0 m ρ c),
       (h c _ (mem_uc main_arg1 (by decide))).trans (W2_arg1 m ρ c)⟩)

/-- THE FRAME: every weakly fair execution of @main terminates and the final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.2.1, (h c).2.2.2⟩) (run_values m ρ)

end Cert.KernelIdeal.Fr

end
-- ==== Proof.KI.Vals0.lean ====
/-
  Region 0, the three control cases read as values: whatever the case, the scratch ends holding the minimum of what it
  held (after the reset of a first tile: +∞) with this tile's nearest distances — one pure function of the two input blocks
  and the previous contents — and at a last tile the output buffer receives exactly that.
-/
import proofs.«156689_j43800076484722_1_alg».proof.Proof.KI.Frame0
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz0_2 : (![0, 0] : Fin 2 → Nat) = fun _ => 0 := funext fun a => by fin_cases a <;> rfl
theorem hz0_3 : (![0, 0, 0] : Fin 3 → Nat) = fun _ => 0 := funext fun a => by fin_cases a <;> rfl

/-- First tile: the scratch ends at the minimum of +∞ with this tile's distances. -/
theorem sval0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i) (x0 : Vec F S4x512x3 .f32) (x1 : Vec F S4x512x3 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S4x512) hz0_2, View.readCov_unit_zero (S := S4x512) _ hz0_2]
  simp only [View.readAt_eq_ld, harg2.read_unread, harg3.read_unread, View.ld_unit_zero (S := S4x512x3) hz0_3]

/-- Middle tile: the scratch ends at the minimum of what it held with this tile's distances. -/
theorem sval0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i) (x0 : Vec F S4x512x3 .f32) (x1 : Vec F S4x512x3 .f32) (xs0 : Vec F S4x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz0_2]
  simp only [View.readAt_eq_ld, harg2.read_unread, harg3.read_unread, harg5.read_unread, View.ld_unit_zero (S := S4x512x3) hz0_3, View.ld_unit_zero (S := S4x512) hz0_2]

/-- Last tile: the scratch likewise, -/
theorem sval0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 : Vec F S4x512x3 .f32) (x1 : Vec F S4x512x3 .f32) (xs0 : Vec F S4x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz0_2]
  simp only [View.readAt_eq_ld, harg2.read_unread, harg3.read_unread, harg5.read_unread, View.ld_unit_zero (S := S4x512x3) hz0_3, View.ld_unit_zero (S := S4x512) hz0_2]

/-- and the output buffer receives the scratch's new contents. -/
theorem oval0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i) (x0 : Vec F S4x512x3 .f32) (x1 : Vec F S4x512x3 .f32) (xs0 : Vec F S4x512 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz0_2, View.readCov_unit_zero (S := S4x512) _ hz0_2]
  simp only [View.readAt_eq_ld, harg2.read_unread, harg3.read_unread, harg5.read_unread, View.ld_unit_zero (S := S4x512x3) hz0_3, View.ld_unit_zero (S := S4x512) hz0_2]

end Cert.KernelIdeal.Fr

end
-- ==== Proof.KI.Blocks0.lean ====
/-
  Region 0 (the first nearest-neighbour call), from blocks to arrays: each window's block index as a function of the
  grid point (point t has coordinates (t / 16, t % 16); the first input and the output move with the first coordinate,
  the second input with the second); hence each input block entry by entry as an entry of its array, the output's
  block read off any array, and the cover of the output array by the blocks written back at the last tile of the
  reduced axis (row r lies in the block of row tile r / 512, written back at point 16 (r / 512) + 15).
-/
import proofs.«156689_j43800076484722_1_alg».proof.Proof.KI.Runs0
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2 ix3 eq_ix2 eq_ix3)

variable {F : FTy → Type} [FloatOps F]

local notation "𝕄" => MT nD τ sig Unit (Elt F) ℕ (UR sig nD τ) ℕ

/-! ## The block index of each window, over the grid -/

/-- The first input's block index: the row tile is grid coordinate 0. -/
theorem win0_0_index : ∀ t : Fin cfg0.N, win0_0.index t 0 = 0 ∧ win0_0.index t 1 = t.val / 16 ∧ win0_0.index t 2 = 0 :=
  by decide +kernel
/-- The second input's block index: the row tile is grid coordinate 1. -/
theorem win0_1_index : ∀ t : Fin cfg0.N, win0_1.index t 0 = 0 ∧ win0_1.index t 1 = t.val % 16 ∧ win0_1.index t 2 = 0 :=
  by decide +kernel
/-- The output's block index: the row tile is grid coordinate 0. -/
theorem win0_2_index : ∀ t : Fin cfg0.N, win0_2.index t 0 = 0 ∧ win0_2.index t 1 = t.val / 16 :=
  by decide +kernel

/-! ## The input blocks, entry by entry -/

section
variable (V : (c : Dev nD) → (b : Ref sig .tc) → Buf (Elt F) ((c : Thread nD τ).loc b))

/-- Entry (b, n, d) of the first input's block at point t is entry (b, 512 (t / 16) + n, d) of its array. -/
theorem iblk0_0_apply (c : Dev nD) (t : Fin cfg0.N) (b : Fin 4) (n : Fin 512) (d : Fin 3) :
    (iblk0 V c 0 t : Vec F S4x512x3 .f32) (ix3 b n d)
      = (V c (Pipeline.arrRef spec0 0) : S4x8192x3.Idx → Elt F .f32)
          (ix3 b ⟨(t.val / 16) * 512 + n.val, by have := t.isLt; have : cfg0.N = 256 := N_0; omega⟩ d) := by
  obtain ⟨e0, e1, e2⟩ := win0_0_index t
  unfold iblk0
  rw [View.read_apply]
  show (V c (Pipeline.arrRef spec0 0) : S4x8192x3.Idx → Elt F .f32) _ = _
  congr 1
  funext a
  apply Fin.ext
  match a with
  | ⟨0, _⟩ => show win0_0.index t 0 * 4 + 1 * b.val = b.val; rw [e0]; omega
  | ⟨1, _⟩ => show win0_0.index t 1 * 512 + 1 * n.val = t.val / 16 * 512 + n.val; rw [e1]; omega
  | ⟨2, _⟩ => show win0_0.index t 2 * 3 + 1 * d.val = d.val; rw [e2]; omega

/-- Entry (b, n, d) of the second input's block at point t is entry (b, 512 (t % 16) + n, d) of its array. -/
theorem iblk0_1_apply (c : Dev nD) (t : Fin cfg0.N) (b : Fin 4) (n : Fin 512) (d : Fin 3) :
    (iblk0 V c 1 t : Vec F S4x512x3 .f32) (ix3 b n d)
      = (V c (Pipeline.arrRef spec0 1) : S4x8192x3.Idx → Elt F .f32)
          (ix3 b ⟨(t.val % 16) * 512 + n.val, by omega⟩ d) := by
  obtain ⟨e0, e1, e2⟩ := win0_1_index t
  unfold iblk0
  rw [View.read_apply]
  show (V c (Pipeline.arrRef spec0 1) : S4x8192x3.Idx → Elt F .f32) _ = _
  congr 1
  funext a
  apply Fin.ext
  match a with
  | ⟨0, _⟩ => show win0_1.index t 0 * 4 + 1 * b.val = b.val; rw [e0]; omega
  | ⟨1, _⟩ => show win0_1.index t 1 * 512 + 1 * n.val = t.val % 16 * 512 + n.val; rw [e1]; omega
  | ⟨2, _⟩ => show win0_1.index t 2 * 3 + 1 * d.val = d.val; rw [e2]; omega

end

/-! ## The output blocks -/

/-- Entry (b, n) of the output's block at point t, read off an array, is the array's entry (b, 512 (t / 16) + n). -/
theorem blk0_2_read (G : S4x8192.Idx → Elt F .f32) (t : Fin cfg0.N) (b : Fin 4) (n : Fin 512) :
    (((cfg0.win 2).blk t).view.read (Elt F) G : S4x512.Idx → Elt F .f32) (ix2 b n)
      = G (ix2 b ⟨(t.val / 16) * 512 + n.val, by have := t.isLt; have : cfg0.N = 256 := N_0; omega⟩) := by
  obtain ⟨e0, e1⟩ := win0_2_index t
  rw [View.read_apply]
  show G _ = _
  congr 1
  funext a
  apply Fin.ext
  match a with
  | ⟨0, _⟩ => show win0_2.index t 0 * 4 + 1 * b.val = b.val; rw [e0]; omega
  | ⟨1, _⟩ => show win0_2.index t 1 * 512 + 1 * n.val = t.val / 16 * 512 + n.val; rw [e1]; omega

/-- An index of the output array lies in point t's block iff each coordinate lies in the block's range on its axis. -/
theorem win0_2_mem_blk (t : Fin cfg0.N) (i : S4x8192.Idx) :
    i ∈ ((cfg0.win 2).blk t).view.set
      ↔ ∀ a : Fin 2, win0_2.index t a * S4x512.size a ≤ (i a).val ∧ (i a).val < win0_2.index t a * S4x512.size a + S4x512.size a := by
  show i ∈ ((View.whole (Pipeline.arrRef spec0 2)).slice (win0_2.rect t)).set ↔ _
  rw [View.set_slice_whole, Rect.mem_set_unit]
  exact Iff.rfl

/-- Row r of the output array lies in the block written back at the last tile of row tile r / 512. -/
theorem win0_2_cover_at (i : S4x8192.Idx) :
    ∃ t : Fin cfg0.N, (cfg0.win 2).flush t = true ∧ i ∈ ((cfg0.win 2).blk t).view.set := by
  have h0 : (i 0).val < 4 := (i 0).isLt
  have h1 : (i 1).val < 8192 := (i 1).isLt
  have hN : cfg0.N = 256 := N_0
  let t : Fin cfg0.N := ⟨(i 1).val / 512 * 16 + 15, by omega⟩
  have ht : t.val = (i 1).val / 512 * 16 + 15 := rfl
  obtain ⟨e0, e1⟩ := win0_2_index t
  refine ⟨t, (flush0_2 t).mpr (by omega), ?_⟩
  rw [win0_2_mem_blk]
  intro a
  match a with
  | ⟨0, _⟩ => show win0_2.index t 0 * 4 ≤ (i 0).val ∧ (i 0).val < win0_2.index t 0 * 4 + 4; rw [e0]; omega
  | ⟨1, _⟩ => show win0_2.index t 1 * 512 ≤ (i 1).val ∧ (i 1).val < win0_2.index t 1 * 512 + 512; rw [e1, ht]; omega

/-- The blocks written back cover the output array. -/
theorem cover0_2 (c : Dev nD) : ∀ i : ((cfg0.win 2).arr.view.loc (c.tc : Thread nD τ)).2.ty.Idx,
    ∃ t : Fin cfg0.N, (cfg0.win 2).flush t = true ∧ i ∈ ((cfg0.win 2).blk t).view.set :=
  fun i => win0_2_cover_at i

end Cert.KernelIdeal.Fr

end
-- ==== Proof.Spec.lean ====
/-
  The function both programs compute, stated once over literal shapes and free of either program.

  For point sets `x : [4, N, 3]` and `y : [4, M, 3]` (a batch of 4, points in 3-space) the squared distance between point
  `n` of `x` and point `m` of `y` in batch `b` is written the way both programs write it,
  `(|x_n|² + |y_m|²) - 2 · ⟨x_n, y_m⟩`, on the extended reals; the nearest-neighbour distance of point `n` is the infimum
  of that over every `m`. The chamfer pair is `nn x1 x2` (for every point of the first set, the nearest point of the second)
  and `nn x2 x1`.
-/
import Idealize.ShloMosaic.PureOps.Ideal
import Idealize.ShloMosaic.Lib.ValueIdx

noncomputable section

open scoped BigOperators

namespace Cert.Spec

open Idealize.ShloMosaic Idealize.ShloMosaic.ValueIdx

/-- The float word `2.0`, as both programs spell it. -/
abbrev two : EReal := Ideal.ofBits .f32 0x40000000#32

/-- `|x_n|²`: the sum over the three coordinates of the squares. -/
def sq {N : Nat} (x : (⟨3, ![4, N, 3]⟩ : Shape).Idx → EReal) (b : Fin 4) (n : Fin N) : EReal :=
  ∑ d : Fin 3, x (ix3 b n d) * x (ix3 b n d)

/-- `⟨x_n, y_m⟩`: the sum over the three coordinates of the products. -/
def dot {N M : Nat} (x : (⟨3, ![4, N, 3]⟩ : Shape).Idx → EReal) (y : (⟨3, ![4, M, 3]⟩ : Shape).Idx → EReal)
    (b : Fin 4) (n : Fin N) (m : Fin M) : EReal :=
  ∑ d : Fin 3, x (ix3 b n d) * y (ix3 b m d)

/-- The squared distance in the expanded form `(|x_n|² + |y_m|²) - 2 ⟨x_n, y_m⟩`. -/
def d2 {N M : Nat} (x : (⟨3, ![4, N, 3]⟩ : Shape).Idx → EReal) (y : (⟨3, ![4, M, 3]⟩ : Shape).Idx → EReal)
    (b : Fin 4) (n : Fin N) (m : Fin M) : EReal :=
  (sq x b n + sq y b m) - two * dot x y b n m

/-- The nearest-neighbour squared distance of point `n` of `x` among ALL points of `y`. -/
def nnAt {N M : Nat} (x : (⟨3, ![4, N, 3]⟩ : Shape).Idx → EReal) (y : (⟨3, ![4, M, 3]⟩ : Shape).Idx → EReal)
    (b : Fin 4) (n : Fin N) : EReal :=
  Finset.univ.inf fun m : Fin M => d2 x y b n m

/-- The same as an array over `[4, N]`. -/
def nn {N M : Nat} (x : (⟨3, ![4, N, 3]⟩ : Shape).Idx → EReal) (y : (⟨3, ![4, M, 3]⟩ : Shape).Idx → EReal) :
    (⟨2, ![4, N]⟩ : Shape).Idx → EReal :=
  fun j => nnAt x y (j 0) (j 1)

/-- The two inner products are one: multiplication commutes on the extended reals. -/
theorem dot_comm {N M : Nat} (x : (⟨3, ![4, N, 3]⟩ : Shape).Idx → EReal) (y : (⟨3, ![4, M, 3]⟩ : Shape).Idx → EReal)
    (b : Fin 4) (n : Fin N) (m : Fin M) : dot x y b n m = dot y x b m n :=
  Finset.sum_congr rfl fun _ _ => mul_comm _ _

/-- The squared distance is symmetric in its two points: the sum of the norms commutes, and so does the inner product. -/
theorem d2_comm {N M : Nat} (x : (⟨3, ![4, N, 3]⟩ : Shape).Idx → EReal) (y : (⟨3, ![4, M, 3]⟩ : Shape).Idx → EReal)
    (b : Fin 4) (n : Fin N) (m : Fin M) : d2 x y b n m = d2 y x b m n := by
  unfold d2; rw [dot_comm, add_comm]

end Cert.Spec

end
-- ==== Proof.Payload.lean ====
/-
  The kernel's two stored values, read at an index on the extended reals.

  The first store writes `+∞` everywhere. The second writes, at `(b, n)`, the minimum of the entry already there and the
  infimum over every point `m` of the second block of `(|x_n|² + |y_m|²) - 2 · ⟨x_n, y_m⟩`: the sums of squares are sums
  over the three coordinates, the batched product into a zero accumulator is the inner product over the three coordinates
  (narrowing the operands changes nothing on the extended reals), the column and the row of norms are spread over the
  `[4, 512, 512]` table, and the minimum over the last axis from `+∞` is the infimum over that axis.
-/
import proofs.«156689_j43800076484722_1_alg».proof.Proof.Gen.KernelIdeal.Skeleton
import proofs.«156689_j43800076484722_1_alg».proof.Proof.Spec
import Idealize.ShloMosaic.PureOps.Ideal.Laws
import Idealize.ShloMosaic.PureOps.Reduce
import Idealize.ShloMosaic.Lib.ValueIdx
import Idealize.ShloMosaic.Lib.Pipeline.Value
import Mathlib.Data.Finset.Fold
import Mathlib.Data.Finset.Lattice.Fold

noncomputable section

open scoped BigOperators

namespace Cert.KernelIdeal.Pay

open Idealize.ShloMosaic Idealize.ShloMosaic.ValueIdx Cert.KernelIdeal Cert.KernelIdeal.Gen

/-- The word `0x7F800000` denotes `+∞`. -/
theorem ofBits_inf : Ideal.ofBits .f32 0x7F800000#32 = (⊤ : EReal) := by simp [Ideal.ofBits, Ideal.ieee]

/-- The first store's value: `+∞` everywhere. -/
theorem pay1_apply (j : S4x512.Idx) : k0_pay1 (F := Ideal) j = (⊤ : EReal) := by
  unfold k0_pay1
  refine (congrFun (shapeCast_self _ _) j).trans ?_
  exact ofBits_inf

/-! ## The two reductions over the last axis -/

/-- The index over `(b, n)` with coordinate `d` inserted on the reduced axis of a `[4, 512, 3]` array. -/
theorem lift_coord (h : S4x512x3.Reduces [2] S4x512) (b : Fin 4) (n : Fin 512) (d : Fin 3) :
    h.lift (ix2 b n) d = ix3 b n d :=
  funext fun a => Fin.ext (by match a with | ⟨0, _⟩ => rfl | ⟨1, _⟩ => rfl | ⟨2, _⟩ => rfl)

/-- The same for a `[4, 512, 512]` array. -/
theorem lift_point (h : S4x512x512.Reduces [2] S4x512) (b : Fin 4) (n : Fin 512) (m : Fin 512) :
    h.lift (ix2 b n) m = ix3 b n m :=
  funext fun a => Fin.ext (by match a with | ⟨0, _⟩ => rfl | ⟨1, _⟩ => rfl | ⟨2, _⟩ => rfl)

/-- The sum of squares over the three coordinates is the specification's `sq`. -/
theorem sumsq_apply (x : FVec Ideal S4x512x3 .f32) (h : S4x512x3.Reduces [2] S4x512) (hφ : FKind.Formats .f32)
    (hacc : (0x00000000#32 : BitVec 32) = FKind.add.neutral .f32 hφ) (b : Fin 4) (n : Fin 512) :
    multiReduction (F := Ideal) .add [2] S4x512 (mulf x x) 0x00000000#32 h hφ hacc (ix2 b n) = Cert.Spec.sq x b n := by
  refine (Ideal.multiReduction_add_single (mulf x x) 0x00000000#32 h hφ hacc (ix2 b n)).trans ?_
  unfold Cert.Spec.sq
  refine Finset.sum_congr rfl fun d _ => ?_
  rw [lift_coord h b n d]
  rfl

/-- On the extended reals a fold of `min` from `+∞` is the infimum. -/
theorem fold_min_top_eq_inf {ι : Type} (s : Finset ι) (f : ι → EReal) : s.fold min (⊤ : EReal) f = s.inf f := by
  refine eq_of_forall_le_iff fun c => ?_
  rw [Finset.le_fold_min, Finset.le_inf_iff]
  exact ⟨fun h => h.2, fun h => ⟨le_top, h⟩⟩

/-- A minimum over the last axis from `+∞` is the infimum over that axis's coordinates. -/
theorem minLane_apply (src : FVec Ideal S4x512x512 .f32) (h : S4x512x512.Reduces [2] S4x512) (hφ : FKind.Formats .f32)
    (hacc : (0x7F800000#32 : BitVec 32) = FKind.minimumf.neutral .f32 hφ) (b : Fin 4) (n : Fin 512) :
    multiReduction (F := Ideal) .minimumf [2] S4x512 src 0x7F800000#32 h hφ hacc (ix2 b n)
      = Finset.univ.inf fun m : Fin 512 => src (ix3 b n m) := by
  refine ((multiReduction_minimumf_eq_fold src _ h hφ hacc (ix2 b n)).trans
    (h.fold_filter_drop_single _ _ src (ix2 b n))).trans ?_
  show (Finset.univ : Finset (Fin 512)).fold min (Ideal.ofBits .f32 0x7F800000#32) (fun m : Fin 512 => src (h.lift (ix2 b n) m)) = _
  rw [ofBits_inf, ← fold_min_top_eq_inf]
  exact Finset.fold_congr fun m _ => congrArg src (lift_point h b n m)

/-! ## The batched product of the two point sets -/

theorem lhs_axis0 (i : S4x512x512.Idx) (q : dot_S4x512x3_S4x512x3_S4x512x512_2_2_1_1_0_0.contr.Idx) :
    (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
theorem lhs_axis1 (i : S4x512x512.Idx) (q : dot_S4x512x3_S4x512x3_S4x512x512_2_2_1_1_0_0.contr.Idx) :
    (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide), dif_pos (show (1 : Fin S4x512x3.rank) ∈ dot_S4x512x3_S4x512x3_S4x512x512_2_2_1_1_0_0.lhsNonContracting by decide)]
  rfl
theorem lhs_axis2 (i : S4x512x512.Idx) (q : dot_S4x512x3_S4x512x3_S4x512x512_2_2_1_1_0_0.contr.Idx) :
    (dot_S4x512x3_S4x512x3_S4x512x512_2_2_1_1_0_0.lhsIdx i q 2).val = (q ⟨0, by decide⟩).val :=
  dot_S4x512x3_S4x512x3_S4x512x512_2_2_1_1_0_0.lhsIdx_val_of_single rfl i q
theorem rhs_axis0 (i : S4x512x512.Idx) (q : dot_S4x512x3_S4x512x3_S4x512x512_2_2_1_1_0_0.contr.Idx) :
    (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
theorem rhs_axis1 (i : S4x512x512.Idx) (q : dot_S4x512x3_S4x512x3_S4x512x512_2_2_1_1_0_0.contr.Idx) :
    (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide), dif_pos (show (1 : Fin S4x512x3.rank) ∈ dot_S4x512x3_S4x512x3_S4x512x512_2_2_1_1_0_0.rhsNonContracting by decide)]
  rfl
theorem rhs_axis2 (i : S4x512x512.Idx) (q : dot_S4x512x3_S4x512x3_S4x512x512_2_2_1_1_0_0.contr.Idx) :
    (dot_S4x512x3_S4x512x3_S4x512x512_2_2_1_1_0_0.rhsIdx i q 2).val = (q ⟨0, by decide⟩).val :=
  dot_S4x512x3_S4x512x3_S4x512x512_2_2_1_1_0_0.rhsIdx_val_of_single rfl i q

/-- The product into the zero accumulator, read at `(b, n, m)`: the inner product of point `n` of the first set and
    point `m` of the second (the narrowing of the operands is the identity on the extended reals). -/
theorem matmul_apply (x y : FVec Ideal S4x512x3 .f32) (hb : FTy.bits .bf16 < FTy.bits .f32) (b : Fin 4) (n m : Fin 512) :
    matmul (F := Ideal) dot_S4x512x3_S4x512x3_S4x512x512_2_2_1_1_0_0 none (truncf .bf16 x hb) (truncf .bf16 y hb)
        (constant (F := Ideal) S4x512x512 .f32 0x00000000#32) (ix3 b n m)
      = Cert.Spec.dot x y b n m := by
  simp only [matmul]
  rw [Ideal.matmul_constant_zero_apply, ← Equiv.sum_comp (contrEquiv1 dot_S4x512x3_S4x512x3_S4x512x512_2_2_1_1_0_0 3 rfl rfl).symm]
  unfold Cert.Spec.dot
  refine Finset.sum_congr rfl fun k _ => ?_
  have hk := contrEquiv1_symm_val dot_S4x512x3_S4x512x3_S4x512x512_2_2_1_1_0_0 3 rfl rfl k
  have el : dot_S4x512x3_S4x512x3_S4x512x512_2_2_1_1_0_0.lhsIdx (ix3 b n m) ((contrEquiv1 dot_S4x512x3_S4x512x3_S4x512x512_2_2_1_1_0_0 3 rfl rfl).symm k) = ix3 b n k := funext fun a => Fin.ext (by
    match a with
    | ⟨0, _⟩ => exact lhs_axis0 _ _
    | ⟨1, _⟩ => exact lhs_axis1 _ _
    | ⟨2, _⟩ => exact (lhs_axis2 _ _).trans hk)
  have er : dot_S4x512x3_S4x512x3_S4x512x512_2_2_1_1_0_0.rhsIdx (ix3 b n m) ((contrEquiv1 dot_S4x512x3_S4x512x3_S4x512x512_2_2_1_1_0_0 3 rfl rfl).symm k) = ix3 b m k := funext fun a => Fin.ext (by
    match a with
    | ⟨0, _⟩ => exact rhs_axis0 _ _
    | ⟨1, _⟩ => exact rhs_axis1 _ _
    | ⟨2, _⟩ => exact (rhs_axis2 _ _).trans hk)
  rw [el, er]
  rfl

/-! ## The layout operations read at an index -/

section Layout
variable {α : Type}

/-- A `[4, 512]` array viewed as `[4, 512, 1]` reads `(b, n)` at `(b, n, u)`. -/
theorem cast_col (v : S4x512.Idx → α) (h : S4x512.ShapeCasts S4x512x1) (b : Fin 4) (n : Fin 512) (u : Fin 1) :
    shapeCast S4x512x1 v h (ix3 b n u) = v (ix2 b n) :=
  shapeCast_apply v h _ _ (by
    rw [Shape.rowMajor_val_two, Shape.rowMajor_val_three]
    show b.val * 512 + n.val = (b.val * 512 + n.val) * 1 + u.val
    omega)

/-- A `[4, 512]` array viewed as `[4, 1, 512]` reads `(b, m)` at `(b, u, m)`. -/
theorem cast_row (v : S4x512.Idx → α) (h : S4x512.ShapeCasts S4x1x512) (b : Fin 4) (u : Fin 1) (m : Fin 512) :
    shapeCast S4x1x512 v h (ix3 b u m) = v (ix2 b m) :=
  shapeCast_apply v h _ _ (by
    rw [Shape.rowMajor_val_two, Shape.rowMajor_val_three]
    show b.val * 512 + m.val = (b.val * 1 + u.val) * 512 + m.val
    omega)

/-- A `[4, 512, 1]` column spread over `[4, 512, 512]` reads its one entry of row `n` at every `m`. -/
theorem bcast_col (v : S4x512x1.Idx → α) (h : S4x512x1.Broadcasts S4x512x512) (b : Fin 4) (n m : Fin 512) :
    broadcastTo S4x512x512 v h (ix3 b n m) = v (ix3 b n (0 : Fin 1)) :=
  broadcastTo_apply v h _ _ fun a => match a with
    | ⟨0, _⟩ => by show b.val = if (4 : Nat) = 1 then 0 else b.val; rw [if_neg (by decide)]
    | ⟨1, _⟩ => by show n.val = if (512 : Nat) = 1 then 0 else n.val; rw [if_neg (by decide)]
    | ⟨2, _⟩ => by show 0 = if (1 : Nat) = 1 then 0 else m.val; rw [if_pos rfl]

/-- A `[4, 1, 512]` row spread over `[4, 512, 512]` reads its entry of column `m` at every `n`. -/
theorem bcast_row (v : S4x1x512.Idx → α) (h : S4x1x512.Broadcasts S4x512x512) (b : Fin 4) (n m : Fin 512) :
    broadcastTo S4x512x512 v h (ix3 b n m) = v (ix3 b (0 : Fin 1) m) :=
  broadcastTo_apply v h _ _ fun a => match a with
    | ⟨0, _⟩ => by show b.val = if (4 : Nat) = 1 then 0 else b.val; rw [if_neg (by decide)]
    | ⟨1, _⟩ => by show 0 = if (1 : Nat) = 1 then 0 else n.val; rw [if_pos rfl]
    | ⟨2, _⟩ => by show m.val = if (512 : Nat) = 1 then 0 else m.val; rw [if_neg (by decide)]

end Layout

/-! ## The second store's value -/

/-- The running minimum stored by the kernel at `(b, n)`: the old entry against the nearest-neighbour squared distance of
    point `n` of the first block among the points of the second. -/
theorem pay2_apply (x0 x1 : Vec Ideal S4x512x3 .f32) (s : Vec Ideal S4x512 .f32) (b : Fin 4) (n : Fin 512) :
    k0_pay2 (F := Ideal) x0 x1 s (ix2 b n) = min (s (ix2 b n)) (Cert.Spec.nnAt x0 x1 b n) := by
  unfold k0_pay2
  refine (congrFun (shapeCast_self _ _) (ix2 b n)).trans ?_
  refine (minimumf_apply _ _ (ix2 b n)).trans (congrArg (min (s (ix2 b n))) ?_)
  refine (minLane_apply _ _ _ _ b n).trans ?_
  unfold Cert.Spec.nnAt
  refine Finset.inf_congr rfl fun m _ => ?_
  unfold Cert.Spec.d2
  refine (subf_apply _ _ (ix3 b n m)).trans ?_
  refine congrArg₂ (· - ·) ((addf_apply _ _ _).trans (congrArg₂ (· + ·) ?_ ?_))
    ((mulf_apply _ _ _).trans (congrArg₂ (· * ·) rfl ?_))
  · exact (bcast_col _ _ b n m).trans ((cast_col _ _ b n 0).trans (sumsq_apply x0 _ _ _ b n))
  · exact (bcast_row _ _ b n m).trans ((cast_row _ _ b 0 m).trans (sumsq_apply x1 _ _ _ b m))
  · exact matmul_apply x0 x1 _ b n m

/-! ## The second kernel: the same two terms -/

theorem k1_pay1_eq : k1_pay1 (F := Ideal) = k0_pay1 (F := Ideal) := rfl

theorem k1_pay2_eq (x0 x1 : Vec Ideal S4x512x3 .f32) (s : Vec Ideal S4x512 .f32) :
    k1_pay2 (F := Ideal) x0 x1 s = k0_pay2 (F := Ideal) x0 x1 s := rfl

/-! ## Both kernels' stores, read at an entry, under one naming -/

theorem kpay0_1 (j : S4x512.Idx) : k0_pay1 (F := Ideal) j = (⊤ : EReal) := pay1_apply j
theorem kpay1_1 (j : S4x512.Idx) : k1_pay1 (F := Ideal) j = (⊤ : EReal) := by rw [k1_pay1_eq]; exact pay1_apply j
theorem kpay0_2 (x0 x1 : Vec Ideal S4x512x3 .f32) (s : Vec Ideal S4x512 .f32) (b : Fin 4) (n : Fin 512) :
    k0_pay2 (F := Ideal) x0 x1 s (ix2 b n) = min (s (ix2 b n)) (Cert.Spec.nnAt x0 x1 b n) := pay2_apply x0 x1 s b n
theorem kpay1_2 (x0 x1 : Vec Ideal S4x512x3 .f32) (s : Vec Ideal S4x512 .f32) (b : Fin 4) (n : Fin 512) :
    k1_pay2 (F := Ideal) x0 x1 s (ix2 b n) = min (s (ix2 b n)) (Cert.Spec.nnAt x0 x1 b n) := by
  rw [k1_pay2_eq]; exact pay2_apply x0 x1 s b n

end Cert.KernelIdeal.Pay

end
-- ==== Proof.TileMin.lean ====
/-
  A running minimum over consecutive tiles is one minimum over everything.

  `T` tiles of `W` candidates each cover `T · W` candidates (here sixteen tiles of 512 cover 8192). A running minimum
  starts at `⊤`, and after each tile is replaced by the smaller of itself and that tile's minimum. After tile `j` it is
  the infimum of the first `(j + 1) · W` candidates, and after the last tile the infimum of all of them. The argument is
  the universal property of the infimum: `z` is below a minimum of two exactly when it is below both, and a candidate
  index below `(j + 2) · W` is either below `(j + 1) · W` or lies in tile `j + 1`.
-/
import Mathlib.Data.EReal.Basic
import Mathlib.Data.Finset.Lattice.Fold
import Mathlib.Data.Fintype.Basic

namespace Cert.TileMin

/-- Folding `min` from `⊤` over a finite set is the infimum over that set. -/
theorem fold_min_top_eq_inf {ι : Type*} (s : Finset ι) (f : ι → EReal) : s.fold min ⊤ f = s.inf f := by
  classical
  induction s using Finset.induction_on with
  | empty => simp
  | insert a s ha ih => rw [Finset.fold_insert ha, Finset.inf_insert, ih]

/-! ### Any tile count and tile width -/

/-- Being below the infimum over an initial segment of the candidates, pointwise. -/
theorem le_inf_filter_iff {K : ℕ} (g : Fin K → EReal) (k : ℕ) (z : EReal) :
    z ≤ (Finset.univ.filter fun m : Fin K => m.val < k).inf g ↔ ∀ m : Fin K, m.val < k → z ≤ g m := by
  rw [Finset.le_inf_iff]
  constructor
  · intro h m hm
    exact h m (Finset.mem_filter.mpr ⟨Finset.mem_univ _, hm⟩)
  · intro h m hm
    exact h m (Finset.mem_filter.mp hm).2

/-- Being below the minimum of tile `j`, pointwise: the tile is the candidates `j · W ≤ m < (j + 1) · W`. -/
theorem le_tile_iff {W K : ℕ} (g : Fin K → EReal) (j : ℕ) (hb : ∀ mm : Fin W, j * W + mm.val < K) (z : EReal) :
    z ≤ (Finset.univ.inf fun mm : Fin W => g ⟨j * W + mm.val, hb mm⟩) ↔
      ∀ m : Fin K, j * W ≤ m.val → m.val < (j + 1) * W → z ≤ g m := by
  have hW : (j + 1) * W = j * W + W := Nat.succ_mul j W
  rw [Finset.le_inf_iff]
  constructor
  · intro h m h1 h2
    have hm := h ⟨m.val - j * W, by omega⟩ (Finset.mem_univ _)
    have e : (⟨j * W + (m.val - j * W), by omega⟩ : Fin K) = m := Fin.ext (by simp only; omega)
    simpa only [e] using hm
  · intro h mm _
    have := mm.isLt
    exact h _ (by simp only; omega) (by simp only; omega)

/-- The running minimum after tile `j` is the infimum over the first `(j + 1) · W` candidates. -/
theorem acc_eq_inf_filter_gen {T W K : ℕ} (g : Fin K → EReal) (acc tile : ℕ → EReal)
    (hb : ∀ j, j < T → ∀ mm : Fin W, j * W + mm.val < K)
    (htile : ∀ j (hj : j < T), tile j = Finset.univ.inf fun mm : Fin W => g ⟨j * W + mm.val, hb j hj mm⟩)
    (h0 : acc 0 = min ⊤ (tile 0))
    (hs : ∀ j, j + 1 < T → acc (j + 1) = min (acc j) (tile (j + 1))) :
    ∀ j, j < T → acc j = (Finset.univ.filter fun m : Fin K => m.val < (j + 1) * W).inf g := by
  intro j
  induction j with
  | zero =>
    intro hj
    rw [h0, htile 0 hj, min_eq_right le_top]
    refine eq_of_forall_le_iff fun z => ?_
    rw [le_tile_iff g 0 (hb 0 hj), le_inf_filter_iff]
    constructor
    · intro h m hm
      exact h m (by omega) hm
    · intro h m _ hm
      exact h m hm
  | succ j ih =>
    intro hj
    have hW : (j + 1 + 1) * W = (j + 1) * W + W := Nat.succ_mul (j + 1) W
    rw [hs j hj, ih (by omega), htile (j + 1) hj]
    refine eq_of_forall_le_iff fun z => ?_
    rw [le_min_iff, le_tile_iff g (j + 1) (hb (j + 1) hj), le_inf_filter_iff, le_inf_filter_iff]
    constructor
    · rintro ⟨h1, h2⟩ m hm
      by_cases hlt : m.val < (j + 1) * W
      · exact h1 m hlt
      · exact h2 m (Nat.le_of_not_lt hlt) hm
    · intro h
      exact ⟨fun m hm => h m (hm.trans_le (hW ▸ Nat.le_add_right _ _)), fun m _ hm => h m hm⟩

/-- After the last tile the running minimum is the infimum over every candidate. -/
theorem tiles_inf_gen {T W K : ℕ} (hK : K = (T + 1) * W) (g : Fin K → EReal) (acc tile : ℕ → EReal)
    (hb : ∀ j, j < T + 1 → ∀ mm : Fin W, j * W + mm.val < K)
    (htile : ∀ j (hj : j < T + 1), tile j = Finset.univ.inf fun mm : Fin W => g ⟨j * W + mm.val, hb j hj mm⟩)
    (h0 : acc 0 = min ⊤ (tile 0))
    (hs : ∀ j, j + 1 < T + 1 → acc (j + 1) = min (acc j) (tile (j + 1))) :
    acc T = Finset.univ.inf g := by
  rw [acc_eq_inf_filter_gen g acc tile hb htile h0 hs T (Nat.lt_succ_self T),
    Finset.filter_true_of_mem fun m _ => hK ▸ m.isLt]

/-! ### Sixteen tiles of 512 -/

/-- The running minimum after tile `j` is the infimum over the first `(j + 1) · 512` candidates. -/
theorem acc_eq_inf_filter (g : Fin 8192 → EReal) (acc tile : ℕ → EReal)
    (htile : ∀ j (hj : j < 16), tile j = Finset.univ.inf fun mm : Fin 512 => g ⟨j * 512 + mm.val, by omega⟩)
    (h0 : acc 0 = min ⊤ (tile 0))
    (hs : ∀ j, j + 1 < 16 → acc (j + 1) = min (acc j) (tile (j + 1))) :
    ∀ j, j < 16 → acc j = (Finset.univ.filter fun m : Fin 8192 => m.val < (j + 1) * 512).inf g :=
  acc_eq_inf_filter_gen (T := 16) (W := 512) g acc tile (fun j hj mm => by omega) htile h0 hs

/-- After the last tile the running minimum is the infimum over every candidate. -/
theorem tiles_inf (g : Fin 8192 → EReal) (acc tile : ℕ → EReal)
    (htile : ∀ j (hj : j < 16), tile j = Finset.univ.inf fun mm : Fin 512 => g ⟨j * 512 + mm.val, by omega⟩)
    (h0 : acc 0 = min ⊤ (tile 0))
    (hs : ∀ j, j + 1 < 16 → acc (j + 1) = min (acc j) (tile (j + 1))) :
    acc 15 = Finset.univ.inf g :=
  tiles_inf_gen (T := 15) (W := 512) (by norm_num) g acc tile (fun j hj mm => by omega) htile h0 hs

end Cert.TileMin
-- ==== Proof.KI.Near0.lean ====
/-
  Region 0 at the ideal instance: the array the first nearest-neighbour call leaves is, entry by entry, the infimum of the
  squared distances over ALL points of the other set.

  Along one row of 16 tiles the scratch holds a running minimum: after the first tile min(+∞, the tile's nearest
  distances), after each later tile the minimum of what it held with that tile's — so after tile j the infimum over the
  first (j+1)·512 candidates, and after the last the infimum over all 8192. A block read through a window is the array
  read at block index × 512 + the offset inside the block, which turns a tile's distances into the array's. The last tile
  of a row stores the scratch into the output block, the 16 output blocks tile the array, and so the array is the
  specification's.
-/
import proofs.«156689_j43800076484722_1_alg».proof.Proof.KI.Vals0
import proofs.«156689_j43800076484722_1_alg».proof.Proof.KI.Blocks0
import proofs.«156689_j43800076484722_1_alg».proof.Proof.Payload
import proofs.«156689_j43800076484722_1_alg».proof.Proof.TileMin

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- The point set whose nearest distances the region computes (its first operand), -/
abbrev arrS0 (c : Dev nD) : S4x8192x3.Idx → EReal := V c (Pipeline.arrRef spec0 0)
/-- and the set it searches (its second operand). -/
abbrev arrO0 (c : Dev nD) : S4x8192x3.Idx → EReal := V c (Pipeline.arrRef spec0 1)

/-- The contents after a point depend on the point's position only. -/
theorem outsAt0_cast (c : Dev nD) {n n' : ℕ} (e : n = n') (h : n < cfg0.N) (h' : n' < cfg0.N) :
    outsAt0 V c n h = outsAt0 V c n' h' := by subst e; rfl

/-- A tile's nearest distances are the array's over the tile's 512 candidates: rows (t / 16)·512 + n, candidates
    (t % 16)·512 + mm. -/
theorem tile0_eq (c : Dev nD) (t : Fin cfg0.N) (b : Fin 4) (n : Fin 512) :
    Cert.Spec.nnAt (N := 512) (M := 512) (iblk0 V c 0 t : Vec Ideal S4x512x3 .f32) (iblk0 V c 1 t : Vec Ideal S4x512x3 .f32) b n
      = Finset.univ.inf fun mm : Fin 512 =>
          Cert.Spec.d2 (arrS0 V c) (arrO0 V c) b
            ⟨(t.val / 16) * 512 + n.val, by have := t.isLt; have : cfg0.N = 256 := N_0; omega⟩
            ⟨(t.val % 16) * 512 + mm.val, by omega⟩ := by
  unfold Cert.Spec.nnAt
  refine congrArg (Finset.univ.inf) (funext fun mm => ?_)
  unfold Cert.Spec.d2 Cert.Spec.sq Cert.Spec.dot
  simp only [iblk0_0_apply, iblk0_1_apply]

/-- After a first tile the scratch holds min(+∞, the tile's nearest distances). -/
theorem scr0_first (c : Dev nD) (t : Fin cfg0.N) (h0 : t.val % 16 = 0) (b : Fin 4) (n : Fin 512) :
    (outsAt0 V c t.val t.isLt).2 (ix2 b n)
      = min ⊤ (Cert.Spec.nnAt (N := 512) (M := 512) (iblk0 V c 0 t : Vec Ideal S4x512x3 .f32) (iblk0 V c 1 t : Vec Ideal S4x512x3 .f32) b n) := by
  have h1 : ¬t.val % 16 = 15 := by omega
  rw [outsAt0_A V c t h0 h1]; dsimp only
  rw [sval0_A, Cert.KernelIdeal.Pay.kpay0_2, Cert.KernelIdeal.Pay.kpay0_1]

/-- After a later tile it holds the minimum of what the point before left with the tile's nearest distances. -/
theorem scr0_next (c : Dev nD) (t : Fin cfg0.N) (p : ℕ) (hp : p + 1 = t.val) (hpl : p < cfg0.N) (h0 : ¬t.val % 16 = 0)
    (b : Fin 4) (n : Fin 512) :
    (outsAt0 V c t.val t.isLt).2 (ix2 b n)
      = min ((outsAt0 V c p hpl).2 (ix2 b n))
          (Cert.Spec.nnAt (N := 512) (M := 512) (iblk0 V c 0 t : Vec Ideal S4x512x3 .f32) (iblk0 V c 1 t : Vec Ideal S4x512x3 .f32) b n) := by
  have e : outsAt0 V c (t.val - 1) (Nat.lt_of_le_of_lt (Nat.sub_le _ _) t.isLt) = outsAt0 V c p hpl :=
    outsAt0_cast V c (by omega) _ _
  by_cases h1 : t.val % 16 = 15
  · rw [outsAt0_C V c t h0 h1]; dsimp only
    rw [sval0_C, Cert.KernelIdeal.Pay.kpay0_2, e]
  · rw [outsAt0_B V c t h0 h1]; dsimp only
    rw [sval0_B, Cert.KernelIdeal.Pay.kpay0_2, e]

/-- At a last tile the output buffer receives the scratch's new contents. -/
theorem out0_last (c : Dev nD) (t : Fin cfg0.N) (h1 : t.val % 16 = 15) :
    (outsAt0 V c t.val t.isLt).1 = (outsAt0 V c t.val t.isLt).2 := by
  have h0 : ¬t.val % 16 = 0 := by omega
  rw [outsAt0_C V c t h0 h1]; dsimp only
  rw [oval0_C, sval0_C]

/-- After the last tile of row `i` the scratch holds, at (b, n), the nearest distance of point i·512 + n among all 8192. -/
theorem row0_end (c : Dev nD) (i : ℕ) (hi : i < 16) (b : Fin 4) (n : Fin 512) (h : i * 16 + 15 < cfg0.N) :
    (outsAt0 V c (i * 16 + 15) h).2 (ix2 b n)
      = Cert.Spec.nnAt (arrS0 V c) (arrO0 V c) b ⟨i * 512 + n.val, by omega⟩ := by
  have hN : cfg0.N = 256 := N_0
  have key := Cert.TileMin.tiles_inf
    (fun m : Fin 8192 => Cert.Spec.d2 (arrS0 V c) (arrO0 V c) b ⟨i * 512 + n.val, by omega⟩ m)
    (fun j => if hj : i * 16 + j < cfg0.N then (outsAt0 V c (i * 16 + j) hj).2 (ix2 b n) else ⊤)
    (fun j => if hj : i * 16 + j < cfg0.N then
      Cert.Spec.nnAt (N := 512) (M := 512) (iblk0 V c 0 ⟨i * 16 + j, hj⟩ : Vec Ideal S4x512x3 .f32) (iblk0 V c 1 ⟨i * 16 + j, hj⟩ : Vec Ideal S4x512x3 .f32) b n else ⊤)
    (fun j hj => by
      have hlt : i * 16 + j < cfg0.N := by omega
      rw [dif_pos hlt, tile0_eq]
      refine congrArg (Finset.univ.inf) (funext fun mm => ?_)
      have e1 : (⟨((⟨i * 16 + j, hlt⟩ : Fin cfg0.N).val / 16) * 512 + n.val, by have := hlt; show (i * 16 + j) / 16 * 512 + n.val < 8192; omega⟩ : Fin 8192) = ⟨i * 512 + n.val, by omega⟩ :=
        Fin.ext (by show (i * 16 + j) / 16 * 512 + n.val = i * 512 + n.val; omega)
      have e2 : (⟨((⟨i * 16 + j, hlt⟩ : Fin cfg0.N).val % 16) * 512 + mm.val, by show (i * 16 + j) % 16 * 512 + mm.val < 8192; omega⟩ : Fin 8192) = ⟨j * 512 + mm.val, by omega⟩ :=
        Fin.ext (by show (i * 16 + j) % 16 * 512 + mm.val = j * 512 + mm.val; omega)
      rw [e1, e2])
    (by
      have hlt : i * 16 + 0 < cfg0.N := by omega
      rw [dif_pos hlt, dif_pos hlt]
      exact scr0_first V c ⟨i * 16 + 0, hlt⟩ (by show (i * 16 + 0) % 16 = 0; omega) b n)
    (fun j hj => by
      have hlt1 : i * 16 + (j + 1) < cfg0.N := by omega
      have hlt0 : i * 16 + j < cfg0.N := by omega
      rw [dif_pos hlt1, dif_pos hlt0, dif_pos hlt1]
      exact scr0_next V c ⟨i * 16 + (j + 1), hlt1⟩ (i * 16 + j) rfl hlt0 (by show ¬(i * 16 + (j + 1)) % 16 = 0; omega) b n)
  rw [dif_pos h] at key
  rw [key]; rfl

/-- What a write-back writes is the specification's block. -/
theorem flushed0_eq (c : Dev nD) (t : Fin cfg0.N) (hf : (cfg0.win 2).flush t = true) :
    (dat0 V c).flushed 2 t = ((cfg0.win 2).blk t).view.read (Elt Ideal) (Cert.Spec.nn (arrS0 V c) (arrO0 V c)) := by
  have hN : cfg0.N = 256 := N_0
  have h15 : t.val % 16 = 15 := (flush0_2 t).mp hf
  have hfl : (dat0 V c).flushed 2 t = (outsAt0 V c t.val t.isLt).1 := by
    show (cfg0.win 2).cut (grid0.coords t) ((dat0 V c).after 2 t) = _
    rw [after0_2]; rfl
  rw [hfl, out0_last V c t h15]
  funext y
  obtain ⟨b, n, rfl⟩ : ∃ (b : Fin 4) (n : Fin 512), y = ix2 b n := ⟨y 0, y 1, eq_ix2 y⟩
  have hlt : t.val / 16 * 16 + 15 < cfg0.N := by have := t.isLt; omega
  have ecast : outsAt0 V c t.val t.isLt = outsAt0 V c (t.val / 16 * 16 + 15) hlt :=
    outsAt0_cast V c (by omega) _ _
  rw [ecast, row0_end V c (t.val / 16) (by have := t.isLt; omega) b n hlt, blk0_2_read]
  rfl

/-- The array the region leaves is the nearest-neighbour array of its first operand against its second. -/
theorem final0 (c : Dev nD) : (dat0 V c).arrAt 2 cfg0.N = Cert.Spec.nn (arrS0 V c) (arrO0 V c) :=
  (dat0 V c).arrAt_eq_of_cover 2 (Cert.Spec.nn (arrS0 V c) (arrO0 V c)) (flushed0_eq V c) (cover0_2 c)

end

end Cert.KernelIdeal.Fr

end
-- ==== Proof.KI.Vals1.lean ====
/-
  Region 1, the three control cases read as values: whatever the case, the scratch ends holding the minimum of what it
  held (after the reset of a first tile: +∞) with this tile's nearest distances — one pure function of the two input blocks
  and the previous contents — and at a last tile the output buffer receives exactly that.
-/
import proofs.«156689_j43800076484722_1_alg».proof.Proof.KI.Frame1
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- First tile: the scratch ends at the minimum of +∞ with this tile's distances. -/
theorem sval1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i) (x0 : Vec F S4x512x3 .f32) (x1 : Vec F S4x512x3 .f32) :
    sout1_A_0 c i arg2 harg2 arg3 harg3 arg4 harg4 arg5 harg5 hc0 hc1 x0 x1 = k1_pay2 x0 x1 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S4x512) hz1_2, View.readCov_unit_zero (S := S4x512) _ hz1_2]
  simp only [View.readAt_eq_ld, harg2.read_unread, harg3.read_unread, View.ld_unit_zero (S := S4x512x3) hz1_3]

/-- Middle tile: the scratch ends at the minimum of what it held with this tile's distances. -/
theorem sval1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i) (x0 : Vec F S4x512x3 .f32) (x1 : Vec F S4x512x3 .f32) (xs0 : Vec F S4x512 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz1_2]
  simp only [View.readAt_eq_ld, harg2.read_unread, harg3.read_unread, harg5.read_unread, View.ld_unit_zero (S := S4x512x3) hz1_3, View.ld_unit_zero (S := S4x512) hz1_2]

/-- Last tile: the scratch likewise, -/
theorem sval1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 : Vec F S4x512x3 .f32) (x1 : Vec F S4x512x3 .f32) (xs0 : Vec F S4x512 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz1_2]
  simp only [View.readAt_eq_ld, harg2.read_unread, harg3.read_unread, harg5.read_unread, View.ld_unit_zero (S := S4x512x3) hz1_3, View.ld_unit_zero (S := S4x512) hz1_2]

/-- and the output buffer receives the scratch's new contents. -/
theorem oval1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i) (x0 : Vec F S4x512x3 .f32) (x1 : Vec F S4x512x3 .f32) (xs0 : Vec F S4x512 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz1_2, View.readCov_unit_zero (S := S4x512) _ hz1_2]
  simp only [View.readAt_eq_ld, harg2.read_unread, harg3.read_unread, harg5.read_unread, View.ld_unit_zero (S := S4x512x3) hz1_3, View.ld_unit_zero (S := S4x512) hz1_2]

end Cert.KernelIdeal.Fr

end
-- ==== Proof.KI.Blocks1.lean ====
/-
  Region 1 (the second nearest-neighbour call), from blocks to arrays: each window's block index as a function of the
  grid point (point t has coordinates (t / 16, t % 16); the first input and the output move with the first coordinate,
  the second input with the second); hence each input block entry by entry as an entry of its array, the output's
  block read off any array, and the cover of the output array by the blocks written back at the last tile of the
  reduced axis (row r lies in the block of row tile r / 512, written back at point 16 (r / 512) + 15).
-/
import proofs.«156689_j43800076484722_1_alg».proof.Proof.KI.Runs1
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2 ix3 eq_ix2 eq_ix3)

variable {F : FTy → Type} [FloatOps F]

local notation "𝕄" => MT nD τ sig Unit (Elt F) ℕ (UR sig nD τ) ℕ

/-! ## The block index of each window, over the grid -/

/-- The first input's block index: the row tile is grid coordinate 0. -/
theorem win1_0_index : ∀ t : Fin cfg1.N, win1_0.index t 0 = 0 ∧ win1_0.index t 1 = t.val / 16 ∧ win1_0.index t 2 = 0 :=
  by decide +kernel
/-- The second input's block index: the row tile is grid coordinate 1. -/
theorem win1_1_index : ∀ t : Fin cfg1.N, win1_1.index t 0 = 0 ∧ win1_1.index t 1 = t.val % 16 ∧ win1_1.index t 2 = 0 :=
  by decide +kernel
/-- The output's block index: the row tile is grid coordinate 0. -/
theorem win1_2_index : ∀ t : Fin cfg1.N, win1_2.index t 0 = 0 ∧ win1_2.index t 1 = t.val / 16 :=
  by decide +kernel

/-! ## The input blocks, entry by entry -/

section
variable (V : (c : Dev nD) → (b : Ref sig .tc) → Buf (Elt F) ((c : Thread nD τ).loc b))

/-- Entry (b, n, d) of the first input's block at point t is entry (b, 512 (t / 16) + n, d) of its array. -/
theorem iblk1_0_apply (c : Dev nD) (t : Fin cfg1.N) (b : Fin 4) (n : Fin 512) (d : Fin 3) :
    (iblk1 V c 0 t : Vec F S4x512x3 .f32) (ix3 b n d)
      = (V c (Pipeline.arrRef spec1 0) : S4x8192x3.Idx → Elt F .f32)
          (ix3 b ⟨(t.val / 16) * 512 + n.val, by have := t.isLt; have : cfg1.N = 256 := N_1; omega⟩ d) := by
  obtain ⟨e0, e1, e2⟩ := win1_0_index t
  unfold iblk1
  rw [View.read_apply]
  show (V c (Pipeline.arrRef spec1 0) : S4x8192x3.Idx → Elt F .f32) _ = _
  congr 1
  funext a
  apply Fin.ext
  match a with
  | ⟨0, _⟩ => show win1_0.index t 0 * 4 + 1 * b.val = b.val; rw [e0]; omega
  | ⟨1, _⟩ => show win1_0.index t 1 * 512 + 1 * n.val = t.val / 16 * 512 + n.val; rw [e1]; omega
  | ⟨2, _⟩ => show win1_0.index t 2 * 3 + 1 * d.val = d.val; rw [e2]; omega

/-- Entry (b, n, d) of the second input's block at point t is entry (b, 512 (t % 16) + n, d) of its array. -/
theorem iblk1_1_apply (c : Dev nD) (t : Fin cfg1.N) (b : Fin 4) (n : Fin 512) (d : Fin 3) :
    (iblk1 V c 1 t : Vec F S4x512x3 .f32) (ix3 b n d)
      = (V c (Pipeline.arrRef spec1 1) : S4x8192x3.Idx → Elt F .f32)
          (ix3 b ⟨(t.val % 16) * 512 + n.val, by omega⟩ d) := by
  obtain ⟨e0, e1, e2⟩ := win1_1_index t
  unfold iblk1
  rw [View.read_apply]
  show (V c (Pipeline.arrRef spec1 1) : S4x8192x3.Idx → Elt F .f32) _ = _
  congr 1
  funext a
  apply Fin.ext
  match a with
  | ⟨0, _⟩ => show win1_1.index t 0 * 4 + 1 * b.val = b.val; rw [e0]; omega
  | ⟨1, _⟩ => show win1_1.index t 1 * 512 + 1 * n.val = t.val % 16 * 512 + n.val; rw [e1]; omega
  | ⟨2, _⟩ => show win1_1.index t 2 * 3 + 1 * d.val = d.val; rw [e2]; omega

end

/-! ## The output blocks -/

/-- Entry (b, n) of the output's block at point t, read off an array, is the array's entry (b, 512 (t / 16) + n). -/
theorem blk1_2_read (G : S4x8192.Idx → Elt F .f32) (t : Fin cfg1.N) (b : Fin 4) (n : Fin 512) :
    (((cfg1.win 2).blk t).view.read (Elt F) G : S4x512.Idx → Elt F .f32) (ix2 b n)
      = G (ix2 b ⟨(t.val / 16) * 512 + n.val, by have := t.isLt; have : cfg1.N = 256 := N_1; omega⟩) := by
  obtain ⟨e0, e1⟩ := win1_2_index t
  rw [View.read_apply]
  show G _ = _
  congr 1
  funext a
  apply Fin.ext
  match a with
  | ⟨0, _⟩ => show win1_2.index t 0 * 4 + 1 * b.val = b.val; rw [e0]; omega
  | ⟨1, _⟩ => show win1_2.index t 1 * 512 + 1 * n.val = t.val / 16 * 512 + n.val; rw [e1]; omega

/-- An index of the output array lies in point t's block iff each coordinate lies in the block's range on its axis. -/
theorem win1_2_mem_blk (t : Fin cfg1.N) (i : S4x8192.Idx) :
    i ∈ ((cfg1.win 2).blk t).view.set
      ↔ ∀ a : Fin 2, win1_2.index t a * S4x512.size a ≤ (i a).val ∧ (i a).val < win1_2.index t a * S4x512.size a + S4x512.size a := by
  show i ∈ ((View.whole (Pipeline.arrRef spec1 2)).slice (win1_2.rect t)).set ↔ _
  rw [View.set_slice_whole, Rect.mem_set_unit]
  exact Iff.rfl

/-- Row r of the output array lies in the block written back at the last tile of row tile r / 512. -/
theorem win1_2_cover_at (i : S4x8192.Idx) :
    ∃ t : Fin cfg1.N, (cfg1.win 2).flush t = true ∧ i ∈ ((cfg1.win 2).blk t).view.set := by
  have h0 : (i 0).val < 4 := (i 0).isLt
  have h1 : (i 1).val < 8192 := (i 1).isLt
  have hN : cfg1.N = 256 := N_1
  let t : Fin cfg1.N := ⟨(i 1).val / 512 * 16 + 15, by omega⟩
  have ht : t.val = (i 1).val / 512 * 16 + 15 := rfl
  obtain ⟨e0, e1⟩ := win1_2_index t
  refine ⟨t, (flush1_2 t).mpr (by omega), ?_⟩
  rw [win1_2_mem_blk]
  intro a
  match a with
  | ⟨0, _⟩ => show win1_2.index t 0 * 4 ≤ (i 0).val ∧ (i 0).val < win1_2.index t 0 * 4 + 4; rw [e0]; omega
  | ⟨1, _⟩ => show win1_2.index t 1 * 512 ≤ (i 1).val ∧ (i 1).val < win1_2.index t 1 * 512 + 512; rw [e1, ht]; omega

/-- The blocks written back cover the output array. -/
theorem cover1_2 (c : Dev nD) : ∀ i : ((cfg1.win 2).arr.view.loc (c.tc : Thread nD τ)).2.ty.Idx,
    ∃ t : Fin cfg1.N, (cfg1.win 2).flush t = true ∧ i ∈ ((cfg1.win 2).blk t).view.set :=
  fun i => win1_2_cover_at i

end Cert.KernelIdeal.Fr

end
-- ==== Proof.KI.Near1.lean ====
/-
  Region 1 at the ideal instance: the array the second nearest-neighbour call leaves is, entry by entry, the infimum of the
  squared distances over ALL points of the other set.

  Along one row of 16 tiles the scratch holds a running minimum: after the first tile min(+∞, the tile's nearest
  distances), after each later tile the minimum of what it held with that tile's — so after tile j the infimum over the
  first (j+1)·512 candidates, and after the last the infimum over all 8192. A block read through a window is the array
  read at block index × 512 + the offset inside the block, which turns a tile's distances into the array's. The last tile
  of a row stores the scratch into the output block, the 16 output blocks tile the array, and so the array is the
  specification's.
-/
import proofs.«156689_j43800076484722_1_alg».proof.Proof.KI.Vals1
import proofs.«156689_j43800076484722_1_alg».proof.Proof.KI.Blocks1
import proofs.«156689_j43800076484722_1_alg».proof.Proof.Payload
import proofs.«156689_j43800076484722_1_alg».proof.Proof.TileMin

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- The point set whose nearest distances the region computes (its first operand), -/
abbrev arrS1 (c : Dev nD) : S4x8192x3.Idx → EReal := V c (Pipeline.arrRef spec1 0)
/-- and the set it searches (its second operand). -/
abbrev arrO1 (c : Dev nD) : S4x8192x3.Idx → EReal := V c (Pipeline.arrRef spec1 1)

/-- The contents after a point depend on the point's position only. -/
theorem outsAt1_cast (c : Dev nD) {n n' : ℕ} (e : n = n') (h : n < cfg1.N) (h' : n' < cfg1.N) :
    outsAt1 V c n h = outsAt1 V c n' h' := by subst e; rfl

/-- A tile's nearest distances are the array's over the tile's 512 candidates: rows (t / 16)·512 + n, candidates
    (t % 16)·512 + mm. -/
theorem tile1_eq (c : Dev nD) (t : Fin cfg1.N) (b : Fin 4) (n : Fin 512) :
    Cert.Spec.nnAt (N := 512) (M := 512) (iblk1 V c 0 t : Vec Ideal S4x512x3 .f32) (iblk1 V c 1 t : Vec Ideal S4x512x3 .f32) b n
      = Finset.univ.inf fun mm : Fin 512 =>
          Cert.Spec.d2 (arrS1 V c) (arrO1 V c) b
            ⟨(t.val / 16) * 512 + n.val, by have := t.isLt; have : cfg1.N = 256 := N_1; omega⟩
            ⟨(t.val % 16) * 512 + mm.val, by omega⟩ := by
  unfold Cert.Spec.nnAt
  refine congrArg (Finset.univ.inf) (funext fun mm => ?_)
  unfold Cert.Spec.d2 Cert.Spec.sq Cert.Spec.dot
  simp only [iblk1_0_apply, iblk1_1_apply]

/-- After a first tile the scratch holds min(+∞, the tile's nearest distances). -/
theorem scr1_first (c : Dev nD) (t : Fin cfg1.N) (h0 : t.val % 16 = 0) (b : Fin 4) (n : Fin 512) :
    (outsAt1 V c t.val t.isLt).2 (ix2 b n)
      = min ⊤ (Cert.Spec.nnAt (N := 512) (M := 512) (iblk1 V c 0 t : Vec Ideal S4x512x3 .f32) (iblk1 V c 1 t : Vec Ideal S4x512x3 .f32) b n) := by
  have h1 : ¬t.val % 16 = 15 := by omega
  rw [outsAt1_A V c t h0 h1]; dsimp only
  rw [sval1_A, Cert.KernelIdeal.Pay.kpay1_2, Cert.KernelIdeal.Pay.kpay1_1]

/-- After a later tile it holds the minimum of what the point before left with the tile's nearest distances. -/
theorem scr1_next (c : Dev nD) (t : Fin cfg1.N) (p : ℕ) (hp : p + 1 = t.val) (hpl : p < cfg1.N) (h0 : ¬t.val % 16 = 0)
    (b : Fin 4) (n : Fin 512) :
    (outsAt1 V c t.val t.isLt).2 (ix2 b n)
      = min ((outsAt1 V c p hpl).2 (ix2 b n))
          (Cert.Spec.nnAt (N := 512) (M := 512) (iblk1 V c 0 t : Vec Ideal S4x512x3 .f32) (iblk1 V c 1 t : Vec Ideal S4x512x3 .f32) b n) := by
  have e : outsAt1 V c (t.val - 1) (Nat.lt_of_le_of_lt (Nat.sub_le _ _) t.isLt) = outsAt1 V c p hpl :=
    outsAt1_cast V c (by omega) _ _
  by_cases h1 : t.val % 16 = 15
  · rw [outsAt1_C V c t h0 h1]; dsimp only
    rw [sval1_C, Cert.KernelIdeal.Pay.kpay1_2, e]
  · rw [outsAt1_B V c t h0 h1]; dsimp only
    rw [sval1_B, Cert.KernelIdeal.Pay.kpay1_2, e]

/-- At a last tile the output buffer receives the scratch's new contents. -/
theorem out1_last (c : Dev nD) (t : Fin cfg1.N) (h1 : t.val % 16 = 15) :
    (outsAt1 V c t.val t.isLt).1 = (outsAt1 V c t.val t.isLt).2 := by
  have h0 : ¬t.val % 16 = 0 := by omega
  rw [outsAt1_C V c t h0 h1]; dsimp only
  rw [oval1_C, sval1_C]

/-- After the last tile of row `i` the scratch holds, at (b, n), the nearest distance of point i·512 + n among all 8192. -/
theorem row1_end (c : Dev nD) (i : ℕ) (hi : i < 16) (b : Fin 4) (n : Fin 512) (h : i * 16 + 15 < cfg1.N) :
    (outsAt1 V c (i * 16 + 15) h).2 (ix2 b n)
      = Cert.Spec.nnAt (arrS1 V c) (arrO1 V c) b ⟨i * 512 + n.val, by omega⟩ := by
  have hN : cfg1.N = 256 := N_1
  have key := Cert.TileMin.tiles_inf
    (fun m : Fin 8192 => Cert.Spec.d2 (arrS1 V c) (arrO1 V c) b ⟨i * 512 + n.val, by omega⟩ m)
    (fun j => if hj : i * 16 + j < cfg1.N then (outsAt1 V c (i * 16 + j) hj).2 (ix2 b n) else ⊤)
    (fun j => if hj : i * 16 + j < cfg1.N then
      Cert.Spec.nnAt (N := 512) (M := 512) (iblk1 V c 0 ⟨i * 16 + j, hj⟩ : Vec Ideal S4x512x3 .f32) (iblk1 V c 1 ⟨i * 16 + j, hj⟩ : Vec Ideal S4x512x3 .f32) b n else ⊤)
    (fun j hj => by
      have hlt : i * 16 + j < cfg1.N := by omega
      rw [dif_pos hlt, tile1_eq]
      refine congrArg (Finset.univ.inf) (funext fun mm => ?_)
      have e1 : (⟨((⟨i * 16 + j, hlt⟩ : Fin cfg1.N).val / 16) * 512 + n.val, by have := hlt; show (i * 16 + j) / 16 * 512 + n.val < 8192; omega⟩ : Fin 8192) = ⟨i * 512 + n.val, by omega⟩ :=
        Fin.ext (by show (i * 16 + j) / 16 * 512 + n.val = i * 512 + n.val; omega)
      have e2 : (⟨((⟨i * 16 + j, hlt⟩ : Fin cfg1.N).val % 16) * 512 + mm.val, by show (i * 16 + j) % 16 * 512 + mm.val < 8192; omega⟩ : Fin 8192) = ⟨j * 512 + mm.val, by omega⟩ :=
        Fin.ext (by show (i * 16 + j) % 16 * 512 + mm.val = j * 512 + mm.val; omega)
      rw [e1, e2])
    (by
      have hlt : i * 16 + 0 < cfg1.N := by omega
      rw [dif_pos hlt, dif_pos hlt]
      exact scr1_first V c ⟨i * 16 + 0, hlt⟩ (by show (i * 16 + 0) % 16 = 0; omega) b n)
    (fun j hj => by
      have hlt1 : i * 16 + (j + 1) < cfg1.N := by omega
      have hlt0 : i * 16 + j < cfg1.N := by omega
      rw [dif_pos hlt1, dif_pos hlt0, dif_pos hlt1]
      exact scr1_next V c ⟨i * 16 + (j + 1), hlt1⟩ (i * 16 + j) rfl hlt0 (by show ¬(i * 16 + (j + 1)) % 16 = 0; omega) b n)
  rw [dif_pos h] at key
  rw [key]; rfl

/-- What a write-back writes is the specification's block. -/
theorem flushed1_eq (c : Dev nD) (t : Fin cfg1.N) (hf : (cfg1.win 2).flush t = true) :
    (dat1 V c).flushed 2 t = ((cfg1.win 2).blk t).view.read (Elt Ideal) (Cert.Spec.nn (arrS1 V c) (arrO1 V c)) := by
  have hN : cfg1.N = 256 := N_1
  have h15 : t.val % 16 = 15 := (flush1_2 t).mp hf
  have hfl : (dat1 V c).flushed 2 t = (outsAt1 V c t.val t.isLt).1 := by
    show (cfg1.win 2).cut (grid1.coords t) ((dat1 V c).after 2 t) = _
    rw [after1_2]; rfl
  rw [hfl, out1_last V c t h15]
  funext y
  obtain ⟨b, n, rfl⟩ : ∃ (b : Fin 4) (n : Fin 512), y = ix2 b n := ⟨y 0, y 1, eq_ix2 y⟩
  have hlt : t.val / 16 * 16 + 15 < cfg1.N := by have := t.isLt; omega
  have ecast : outsAt1 V c t.val t.isLt = outsAt1 V c (t.val / 16 * 16 + 15) hlt :=
    outsAt1_cast V c (by omega) _ _
  rw [ecast, row1_end V c (t.val / 16) (by have := t.isLt; omega) b n hlt, blk1_2_read]
  rfl

/-- The array the region leaves is the nearest-neighbour array of its first operand against its second. -/
theorem final1 (c : Dev nD) : (dat1 V c).arrAt 2 cfg1.N = Cert.Spec.nn (arrS1 V c) (arrO1 V c) :=
  (dat1 V c).arrAt_eq_of_cover 2 (Cert.Spec.nn (arrS1 V c) (arrO1 V c)) (flushed1_eq V c) (cover1_2 c)

end

end Cert.KernelIdeal.Fr

end
-- ==== Proof.RefValue.lean ====
/-
  The reference's two results, read index by index, are the nearest-neighbour arrays of the specification.

  The squared-distance stage at (b, n, m) is `(|x1_n|² + |x2_m|²) - 2 ⟨x1_n, x2_m⟩`: the two sums of squares start from the
  zero word, the inner product is the sum over the three coordinates, and the broadcasts only repeat entries. The first
  result folds `min` from the top of the extended reals over m, which is the infimum over m; the second folds over n, and
  the squared distance is symmetric in its two points, so it is the nearest-neighbour array with the two sets exchanged.
-/
import proofs.«156689_j43800076484722_1_alg».proof.Proof.Gen.ReferenceIdeal.Run
import proofs.«156689_j43800076484722_1_alg».proof.Proof.Gen.ReferenceIdeal.Read
import proofs.«156689_j43800076484722_1_alg».proof.Proof.Spec
import Idealize.ShloMosaic.PureOps.Ideal.Laws
import Idealize.ShloMosaic.Lib.ValueIdx

noncomputable section

open scoped BigOperators

namespace Cert.RefValue

open Cert.ReferenceIdeal Cert.ReferenceIdeal.Gen Cert.ReferenceIdeal.Read Idealize.ShloMosaic Idealize.ShloMosaic.ValueIdx

/-- The word `0x7F800000` is the top of the extended reals. -/
theorem inf_word : Ideal.ofBits .f32 0x7F800000#32 = (⊤ : EReal) := by simp [Ideal.ofBits, Ideal.ieee]

/-- A fold of `min` from the top over a whole finite type is the infimum over it. -/
theorem fold_min_top {ι : Type} [Fintype ι] (f : ι → EReal) :
    (Finset.univ : Finset ι).fold min ⊤ f = Finset.univ.inf f := by
  unfold Finset.inf
  rfl

theorem red2 : S4x8192x8192.Reduces [2] S4x8192 := by decide
theorem red1 : S4x8192x8192.Reduces [1] S4x8192 := by decide

theorem lift2 (b : Fin 4) (n m : Fin 8192) : red2.lift (ix2 b n) m = ix3 b n m :=
  funext fun a => Fin.ext (by match a with | ⟨0, _⟩ => rfl | ⟨1, _⟩ => rfl | ⟨2, _⟩ => rfl)

theorem lift1 (b : Fin 4) (n m : Fin 8192) : red1.lift (ix2 b m) n = ix3 b n m :=
  funext fun a => Fin.ext (by match a with | ⟨0, _⟩ => rfl | ⟨1, _⟩ => rfl | ⟨2, _⟩ => rfl)

/-- The reference's squared-distance stage at batch `b`, point `n` of the first set and point `m` of the second. -/
theorem v12_at (X1 X2 : FVec Ideal S4x8192x3 .f32) (b : Fin 4) (n m : Fin 8192) :
    val_main_v12 (F := Ideal) X1 X2 (ix3 b n m) = Cert.Spec.d2 X1 X2 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply,
    val_main_cst_apply, val_main_cst_0_apply, val_main_cst_1_apply]
  simp only [val_main_v0_apply, val_main_v2_apply, e1, e3, el, er, Ideal.ofBits_def, Ideal.addf_def, Ideal.subf_def,
    Ideal.mulf_def, Ideal.ofBits_zero_f32, zero_add]
  rfl

/-- A minimum-reduce from the top word over the last axis, at `(b, n)`: the infimum over the last coordinate. -/
theorem reduce_min_last (v : S4x8192x8192.Idx → EReal) (b : Fin 4) (n : Fin 8192) :
    Host.reduce (FloatOps.minimumf (F := Ideal) (φ := .f32)) v (constant (F := Ideal) S_ .f32 0x7F800000#32)
        reducesTo_S4x8192x8192_S4x8192_d2 h_S_ (ix2 b n)
      = Finset.univ.inf fun m : Fin 8192 => v (ix3 b n m) := by
  rw [Host.reduce_eq_fold_single (FloatOps.minimumf (F := Ideal) (φ := .f32)) v _ reducesTo_S4x8192x8192_S4x8192_d2 red2 h_S_ (ix2 b n)]
  show (Finset.univ : Finset (Fin 8192)).fold min (Ideal.ofBits .f32 0x7F800000#32) (fun m : Fin 8192 => v (red2.lift (ix2 b n) m)) = _
  rw [inf_word, fold_min_top]
  exact Finset.inf_congr rfl fun m _ => congrArg v (lift2 b n m)

/-- A minimum-reduce from the top word over the middle axis, at `(b, m)`: the infimum over the middle coordinate. -/
theorem reduce_min_mid (v : S4x8192x8192.Idx → EReal) (b : Fin 4) (m : Fin 8192) :
    Host.reduce (FloatOps.minimumf (F := Ideal) (φ := .f32)) v (constant (F := Ideal) S_ .f32 0x7F800000#32)
        reducesTo_S4x8192x8192_S4x8192_d1 h_S_ (ix2 b m)
      = Finset.univ.inf fun n : Fin 8192 => v (ix3 b n m) := by
  rw [Host.reduce_eq_fold_single (FloatOps.minimumf (F := Ideal) (φ := .f32)) v _ reducesTo_S4x8192x8192_S4x8192_d1 red1 h_S_ (ix2 b m)]
  show (Finset.univ : Finset (Fin 8192)).fold min (Ideal.ofBits .f32 0x7F800000#32) (fun n : Fin 8192 => v (red1.lift (ix2 b m) n)) = _
  rw [inf_word, fold_min_top]
  exact Finset.inf_congr rfl fun n _ => congrArg v (lift1 b n m)

/-- The reference's first result is the nearest-neighbour array of the first point set in the second. -/
theorem ref_v13 (X1 X2 : FVec Ideal S4x8192x3 .f32) : val_main_v13 (F := Ideal) X1 X2 = Cert.Spec.nn X1 X2 := by
  funext j
  obtain ⟨b, n, rfl⟩ : ∃ (b : Fin 4) (n : Fin 8192), j = ix2 b n := ⟨j 0, j 1, eq_ix2 j⟩
  unfold val_main_v13 val_main_cst_2
  generalize hv : val_main_v12 (F := Ideal) X1 X2 = v
  rw [reduce_min_last v b n]
  subst hv
  show _ = Finset.univ.inf fun m : Fin 8192 => Cert.Spec.d2 X1 X2 b n m
  exact Finset.inf_congr rfl fun m _ => v12_at X1 X2 b n m

/-- The reference's second result is the nearest-neighbour array of the second point set in the first. -/
theorem ref_v14 (X1 X2 : FVec Ideal S4x8192x3 .f32) : val_main_v14 (F := Ideal) X1 X2 = Cert.Spec.nn X2 X1 := by
  funext j
  obtain ⟨b, m, rfl⟩ : ∃ (b : Fin 4) (m : Fin 8192), j = ix2 b m := ⟨j 0, j 1, eq_ix2 j⟩
  unfold val_main_v14 val_main_cst_3
  generalize hv : val_main_v12 (F := Ideal) X1 X2 = v
  rw [reduce_min_mid v b m]
  subst hv
  show _ = Finset.univ.inf fun n : Fin 8192 => Cert.Spec.d2 X2 X1 b m n
  exact Finset.inf_congr rfl fun n _ => (v12_at X1 X2 b n m).trans (Cert.Spec.d2_comm X1 X2 b n m)

end Cert.RefValue

end
-- ==== Proof.lean ====
/-
  The claim: the two-call nearest-neighbour kernel (for every point of one set, the squared distance to the nearest point
  of the other, in both directions) against its plain reference, over the extended reals.

  Both programs compute, for a point n of x and a point m of y, (|x_n|² + |y_m|²) - 2⟨x_n, y_m⟩ and take the minimum over m;
  the kernel tiles both point sets by 512 and carries a running minimum from +∞ over the 16 tiles of the searched set,
  which is the minimum over all 8192 candidates. The second call swaps the roles of the two sets; the reference computes
  the one distance matrix and reduces it along the other axis, and the two agree because the sum of the norms and the
  inner product are symmetric (commutativity of + and · only: no finiteness is used).

  The frames of the two kernel programs come from the launch of their two regions; each region's body is run once per
  control case (first, middle, last tile of a row of tiles) and the region's invariant carries the scratch's contents from
  point to point. The reference's frame and values are its read-back run.
-/
import proofs.«156689_j43800076484722_1_alg».proof.Defs
import proofs.«156689_j43800076484722_1_alg».proof.Proof.Gen.Kernel
import proofs.«156689_j43800076484722_1_alg».proof.Proof.Gen.KernelIdeal
import proofs.«156689_j43800076484722_1_alg».proof.Proof.Gen.ReferenceIdeal
import proofs.«156689_j43800076484722_1_alg».proof.Proof.Gen.Pre_finite_inputs
import proofs.«156689_j43800076484722_1_alg».proof.Proof.K.Launch
import proofs.«156689_j43800076484722_1_alg».proof.Proof.KI.Launch
import proofs.«156689_j43800076484722_1_alg».proof.Proof.KI.Near0
import proofs.«156689_j43800076484722_1_alg».proof.Proof.KI.Near1
import proofs.«156689_j43800076484722_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

theorem preserves : Cert.preserves_Kernel_KernelIdeal := trivial

/-- At the ideal instance both programs end with the two nearest-neighbour arrays of the specification: the kernel's two
    regions each leave one (the second with the operands swapped), and the reference's two reductions of the one distance
    matrix are the same two arrays. -/
theorem algebraic : Cert.algebraic_KernelIdeal_ReferenceIdeal := by
  intro m ρ m' ρ' _ hagree
  refine ⟨fun c => Cert.Spec.nn (N := 8192) (M := 8192)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.nn (N := 8192) (M := 8192)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)), ?_, ?_⟩
  · refine (θ_run Cert.KernelIdeal.defs _ _).mono
      (fun _ h c => ⟨(h c).1.trans ?_, (h c).2.1.trans ?_, (h c).2.2.1, (h c).2.2.2⟩)
      (Cert.KernelIdeal.Fr.run_values (F := Ideal) m ρ)
    · rw [Cert.KernelIdeal.Fr.final0]
    · rw [Cert.KernelIdeal.Fr.final1]
      show Cert.Spec.nn (N := 8192) (M := 8192) (Cert.KernelIdeal.Fr.Vin1 m ρ c Cert.KernelIdeal.main_arg1)
        (Cert.KernelIdeal.Fr.Vin1 m ρ c Cert.KernelIdeal.main_arg0) = _
      rw [Cert.KernelIdeal.Fr.Vin1_arg0, Cert.KernelIdeal.Fr.Vin1_arg1]
  · refine (θ_run Cert.ReferenceIdeal.defs _ _).mono
      (fun _ h c => ⟨?_, ?_, (h c).2.2.1, (h c).2.2.2⟩)
      (Cert.ReferenceIdeal.Value.run (F := Ideal) m' ρ')
    · rw [(h c).1, Cert.ReferenceIdeal.Read.val_main_v13_eq, Cert.RefValue.ref_v13, (hagree c).1, (hagree c).2]
    · rw [(h c).2.1, Cert.ReferenceIdeal.Read.val_main_v14_eq, Cert.RefValue.ref_v14, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
